-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S5000x128 : Shape := ⟨2, ![5000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 115
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x128, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S850000, .f32⟩
  | .hbm, ⟨67, _⟩ => ⟨S_, .f32⟩
  | .hbm, ⟨68, _⟩ => ⟨S50000, .f32⟩
  | .hbm, ⟨69, _⟩ => ⟨S850000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .i1⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S850000, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000x128, .f32⟩
  | .hbm, ⟨106, _⟩ => ⟨S850000x1, .f32⟩
  | .hbm, ⟨107, _⟩ => ⟨S850000x128, .f32⟩
  | .hbm, ⟨108, _⟩ => ⟨S850000x128, .f32⟩
  | .hbm, ⟨109, _⟩ => ⟨S_, .f32⟩
  | .hbm, ⟨110, _⟩ => ⟨S50000x128, .f32⟩
  | .hbm, ⟨111, _⟩ => ⟨S850000x1, .i32⟩
  | .hbm, ⟨112, _⟩ => ⟨S50000x128, .f32⟩
  | .hbm, ⟨113, _⟩ => ⟨S1x128, .f32⟩
  | .hbm, ⟨114, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_c_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_15 : Ref sig .tc := ⟨.hbm, 87, rfl⟩
abbrev main_v64 : Ref sig .tc := ⟨.hbm, 88, rfl⟩
abbrev main_v65 : Ref sig .tc := ⟨.hbm, 89, rfl⟩
abbrev main_c_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_17 : Ref sig .tc := ⟨.hbm, 97, rfl⟩
abbrev main_v72 : Ref sig .tc := ⟨.hbm, 98, rfl⟩
abbrev main_v73 : Ref sig .tc := ⟨.hbm, 99, rfl⟩
abbrev main_c_18 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_19 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 147
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S50000x128, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000x128, .f32⟩
  | 55 => ⟨S850000x1, .f32⟩
  | 56 => ⟨S850000x128, .f32⟩
  | 57 => ⟨S850000x128, .f32⟩
  | 58 => ⟨S_, .f32⟩
  | 59 => ⟨S50000x128, .f32⟩
  | 60 => ⟨S850000x1, .i32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .i1⟩
  | 68 => ⟨S_, .f32⟩
  | 69 => ⟨S50000x128, .f32⟩
  | 70 => ⟨S50000x128, .i1⟩
  | 71 => ⟨S_, .f32⟩
  | 72 => ⟨S_, .f32⟩
  | 73 => ⟨S50000x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x128, .f32⟩
  | 80 => ⟨S50000x128, .f32⟩
  | 81 => ⟨S_, .f32⟩
  | 82 => ⟨S850000, .f32⟩
  | 83 => ⟨S_, .f32⟩
  | 84 => ⟨S50000, .f32⟩
  | 85 => ⟨S850000x1, .i32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S50000, .f32⟩
  | 93 => ⟨S50000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000, .f32⟩
  | 112 => ⟨S850000, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x128, .f32⟩
  | 122 => ⟨S850000x1, .f32⟩
  | 123 => ⟨S850000x128, .f32⟩
  | 124 => ⟨S850000x128, .f32⟩
  | 125 => ⟨S_, .f32⟩
  | 126 => ⟨S50000x128, .f32⟩
  | 127 => ⟨S850000x1, .i32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .i1⟩
  | 7 => ⟨S_, .f32⟩
  | 8 => ⟨S50000x128, .f32⟩
  | 9 => ⟨S50000x128, .i1⟩
  | 10 => ⟨S_, .f32⟩
  | 11 => ⟨S_, .f32⟩
  | 12 => ⟨S50000x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_cst_0 : Ref sig .tc := ⟨.hbm, 68, rfl⟩
abbrev main_call1_v2 : Ref sig .tc := ⟨.hbm, 69, rfl⟩
abbrev main_call1_v3 : Ref sig .tc := ⟨.hbm, 70, rfl⟩
abbrev main_call1_cst_1 : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_v4 : Ref sig .tc := ⟨.hbm, 74, rfl⟩
abbrev main_call1_v5 : Ref sig .tc := ⟨.hbm, 75, rfl⟩
abbrev main_call1_cst_2 : Ref sig .tc := ⟨.hbm, 76, rfl⟩
abbrev main_call1_v6 : Ref sig .tc := ⟨.hbm, 77, rfl⟩
abbrev main_call1_v7 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_cst_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_12 : Ref sig .tc := ⟨.hbm, 91, rfl⟩
abbrev main_v57 : Ref sig .tc := ⟨.hbm, 92, rfl⟩
abbrev main_v58 : Ref sig .tc := ⟨.hbm, 93, rfl⟩
abbrev main_c_13 : Ref sig .tc := ⟨.hbm, 94, rfl⟩
abbrev main_v59 : Ref sig .tc := ⟨.hbm, 95, rfl⟩
abbrev main_v60 : Ref sig .tc := ⟨.hbm, 96, rfl⟩
abbrev main_c_14 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_15 : Ref sig .tc := ⟨.hbm, 103, rfl⟩
abbrev main_v66 : Ref sig .tc := ⟨.hbm, 104, rfl⟩
abbrev main_v67 : Ref sig .tc := ⟨.hbm, 105, rfl⟩
abbrev main_c_16 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_17 : Ref sig .tc := ⟨.hbm, 113, rfl⟩
abbrev main_v74 : Ref sig .tc := ⟨.hbm, 114, rfl⟩
abbrev main_v75 : Ref sig .tc := ⟨.hbm, 115, rfl⟩
abbrev main_c_18 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_19 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_call3_cst : Ref sig .tc := ⟨.hbm, 132, rfl⟩
abbrev main_call3_v0 : Ref sig .tc := ⟨.hbm, 133, rfl⟩
abbrev main_call3_v1 : Ref sig .tc := ⟨.hbm, 134, rfl⟩
abbrev main_call3_cst_0 : Ref sig .tc := ⟨.hbm, 135, rfl⟩
abbrev main_call3_v2 : Ref sig .tc := ⟨.hbm, 136, rfl⟩
abbrev main_call3_v3 : Ref sig .tc := ⟨.hbm, 137, rfl⟩
abbrev main_call3_cst_1 : Ref sig .tc := ⟨.hbm, 138, rfl⟩
abbrev main_call3_call0_v0 : Ref sig .tc := ⟨.hbm, 139, rfl⟩
abbrev main_call3_call0_v1 : Ref sig .tc := ⟨.hbm, 140, rfl⟩
abbrev main_call3_v4 : Ref sig .tc := ⟨.hbm, 141, rfl⟩
abbrev main_call3_v5 : Ref sig .tc := ⟨.hbm, 142, rfl⟩
abbrev main_call3_cst_2 : Ref sig .tc := ⟨.hbm, 143, rfl⟩
abbrev main_call3_v6 : Ref sig .tc := ⟨.hbm, 144, rfl⟩
abbrev main_call3_v7 : Ref sig .tc := ⟨.hbm, 145, rfl⟩
abbrev main_v90 : Ref sig .tc := ⟨.hbm, 146, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.RefOps.lean ====
/- Laid out by: python3 scratch/mkrefops.py > proof/Proof/RefOps.lean (run in the unit directory), from proof/ReferenceIdeal.lean:
   the reference's host operations, in order, as six lists; a call of a module-local function is the callee's printed
   operations over that call's record. Definitions only. -/
import proofs.«168945_j53094385713941_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- 8 operations: the two index vectors (sources and targets, each edge list followed by the self loops) and the first layer's product. -/
abbrev rops0 : List (HloOp τ sig (Elt F)) :=
  ( StableHlo.nullary main_v0 (iotaInDim S50000 32 0)
  :: StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F))
  :: StableHlo.reshape main_v1 main_v2 rfl shapeCasts_S1x800000_S800000
  :: StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))
  :: StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F))
  :: StableHlo.reshape main_v4 main_v5 rfl shapeCasts_S1x800000_S800000
  :: StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))
  :: StableHlo.binary main_arg0 main_arg2 main_v7 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: [] )

/-- 48 operations: the first layer's degrees, normalisation, gather, scaling and scatter-add. -/
abbrev rops1 : List (HloOp τ sig (Elt F)) :=
  ( StableHlo.nullary main_cst (constant S_ .f32 0x3F800000#32)
  :: StableHlo.unary main_cst main_v8 (broadcastInDim S850000 ![] bcast_S_S850000 : (⟨S_, .f32⟩ : BufTy).Contents (Elt F) → (⟨S850000, .f32⟩ : BufTy).Contents (Elt F))
  :: StableHlo.nullary main_cst_0 (constant S_ .f32 0x00000000#32)
  :: StableHlo.unary main_cst_0 main_v9 (broadcastInDim S50000 ![] bcast_S_S50000 : (⟨S_, .f32⟩ : BufTy).Contents (Elt F) → (⟨S50000, .f32⟩ : BufTy).Contents (Elt F))
  :: StableHlo.unary main_v6 main_v10 (broadcastInDim S850000x1 ![0] bcast_S850000_S850000x1_0 : (⟨S850000, .i32⟩ : BufTy).Contents (Elt F) → (⟨S850000x1, .i32⟩ : BufTy).Contents (Elt F))
  :: StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F))
  :: StableHlo.nullary main_cst_1 (constant S_ .f32 0x00000000#32)
  :: StableHlo.unary main_cst_1 main_v12 (broadcastInDim S50000 ![] bcast_S_S50000 : (⟨S_, .f32⟩ : BufTy).Contents (Elt F) → (⟨S50000, .f32⟩ : BufTy).Contents (Elt F))
  :: StableHlo.binary main_v11 main_v12 main_v13 (cmpf .ogt : (⟨S50000, .f32⟩ : BufTy).Contents (Elt F) → (⟨S50000, .f32⟩ : BufTy).Contents (Elt F) → (⟨S50000, .i1⟩ : BufTy).Contents (Elt F))
  :: StableHlo.unary main_v11 main_v14 (Host.rsqrt : (⟨S50000, .f32⟩ : BufTy).Contents (Elt F) → (⟨S50000, .f32⟩ : BufTy).Contents (Elt F))
  :: StableHlo.nullary main_cst_2 (constant S_ .f32 0x00000000#32)
  :: StableHlo.unary main_cst_2 main_v15 (broadcastInDim S50000 ![] bcast_S_S50000 : (⟨S_, .f32⟩ : BufTy).Contents (Elt F) → (⟨S50000, .f32⟩ : BufTy).Contents (Elt F))
  :: StableHlo.TRef.ternary (.of main_v13 : StableHlo.TRef sig ⟨S50000, .i1⟩) (.of main_v14 : StableHlo.TRef sig ⟨S50000, .f32⟩) (.of main_v15 : StableHlo.TRef sig ⟨S50000, .f32⟩) main_call0.v0 select
  :: StableHlo.nullary main_c (constantI S_ 32 0#32)
  :: StableHlo.unary main_c main_v17 (broadcastInDim S850000 ![] bcast_S_S850000 : (⟨S_, .i32⟩ : BufTy).Contents (Elt F) → (⟨S850000, .i32⟩ : BufTy).Contents (Elt F))
  :: StableHlo.binary main_v3 main_v17 main_v18 (cmpi .slt : (⟨S850000, .i32⟩ : BufTy).Contents (Elt F) → (⟨S850000, .i32⟩ : BufTy).Contents (Elt F) → (⟨S850000, .i1⟩ : BufTy).Contents (Elt F))
  :: StableHlo.nullary main_c_3 (constantI S_ 32 50000#32)
  :: StableHlo.unary main_c_3 main_v19 (broadcastInDim S850000 ![] bcast_S_S850000 : (⟨S_, .i32⟩ : BufTy).Contents (Elt F) → (⟨S850000, .i32⟩ : BufTy).Contents (Elt F))
  :: StableHlo.binary main_v3 main_v19 main_v20 (addi : (⟨S850000, .i32⟩ : BufTy).Contents (Elt F) → (⟨S850000, .i32⟩ : BufTy).Contents (Elt F) → (⟨S850000, .i32⟩ : BufTy).Contents (Elt F))
  :: StableHlo.ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v21 main_v22 (broadcastInDim S850000x1 ![0] bcast_S850000_S850000x1_0 : (⟨S850000, .i32⟩ : BufTy).Contents (Elt F) → (⟨S850000x1, .i32⟩ : BufTy).Contents (Elt F))
  :: StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))
  :: StableHlo.nullary main_c_4 (constantI S_ 32 0#32)
  :: StableHlo.unary main_c_4 main_v24 (broadcastInDim S850000 ![] bcast_S_S850000 : (⟨S_, .i32⟩ : BufTy).Contents (Elt F) → (⟨S850000, .i32⟩ : BufTy).Contents (Elt F))
  :: StableHlo.binary main_v6 main_v24 main_v25 (cmpi .slt : (⟨S850000, .i32⟩ : BufTy).Contents (Elt F) → (⟨S850000, .i32⟩ : BufTy).Contents (Elt F) → (⟨S850000, .i1⟩ : BufTy).Contents (Elt F))
  :: StableHlo.nullary main_c_5 (constantI S_ 32 50000#32)
  :: StableHlo.unary main_c_5 main_v26 (broadcastInDim S850000 ![] bcast_S_S850000 : (⟨S_, .i32⟩ : BufTy).Contents (Elt F) → (⟨S850000, .i32⟩ : BufTy).Contents (Elt F))
  :: StableHlo.binary main_v6 main_v26 main_v27 (addi : (⟨S850000, .i32⟩ : BufTy).Contents (Elt F) → (⟨S850000, .i32⟩ : BufTy).Contents (Elt F) → (⟨S850000, .i32⟩ : BufTy).Contents (Elt F))
  :: StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v28 main_v29 (broadcastInDim S850000x1 ![0] bcast_S850000_S850000x1_0 : (⟨S850000, .i32⟩ : BufTy).Contents (Elt F) → (⟨S850000x1, .i32⟩ : BufTy).Contents (Elt F))
  :: StableHlo.binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))
  :: StableHlo.binary main_v23 main_v30 main_v31 (mulf : (⟨S850000, .f32⟩ : BufTy).Contents (Elt F) → (⟨S850000, .f32⟩ : BufTy).Contents (Elt F) → (⟨S850000, .f32⟩ : BufTy).Contents (Elt F))
  :: StableHlo.nullary main_c_6 (constantI S_ 32 0#32)
  :: StableHlo.unary main_c_6 main_v32 (broadcastInDim S850000 ![] bcast_S_S850000 : (⟨S_, .i32⟩ : BufTy).Contents (Elt F) → (⟨S850000, .i32⟩ : BufTy).Contents (Elt F))
  :: StableHlo.binary main_v3 main_v32 main_v33 (cmpi .slt : (⟨S850000, .i32⟩ : BufTy).Contents (Elt F) → (⟨S850000, .i32⟩ : BufTy).Contents (Elt F) → (⟨S850000, .i1⟩ : BufTy).Contents (Elt F))
  :: StableHlo.nullary main_c_7 (constantI S_ 32 50000#32)
  :: StableHlo.unary main_c_7 main_v34 (broadcastInDim S850000 ![] bcast_S_S850000 : (⟨S_, .i32⟩ : BufTy).Contents (Elt F) → (⟨S850000, .i32⟩ : BufTy).Contents (Elt F))
  :: StableHlo.binary main_v3 main_v34 main_v35 (addi : (⟨S850000, .i32⟩ : BufTy).Contents (Elt F) → (⟨S850000, .i32⟩ : BufTy).Contents (Elt F) → (⟨S850000, .i32⟩ : BufTy).Contents (Elt F))
  :: StableHlo.ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v36 main_v37 (broadcastInDim S850000x1 ![0] bcast_S850000_S850000x1_0 : (⟨S850000, .i32⟩ : BufTy).Contents (Elt F) → (⟨S850000x1, .i32⟩ : BufTy).Contents (Elt F))
  :: StableHlo.binary main_v7 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F))
  :: StableHlo.unary main_v31 main_v39 (broadcastInDim S850000x1 ![0] bcast_S850000_S850000x1_0 : (⟨S850000, .f32⟩ : BufTy).Contents (Elt F) → (⟨S850000x1, .f32⟩ : BufTy).Contents (Elt F))
  :: StableHlo.unary main_v39 main_v40 (broadcastInDim S850000x128 ![0, 1] bcast_S850000x1_S850000x128_0_1 : (⟨S850000x1, .f32⟩ : BufTy).Contents (Elt F) → (⟨S850000x128, .f32⟩ : BufTy).Contents (Elt F))
  :: StableHlo.binary main_v38 main_v40 main_v41 (mulf : (⟨S850000x128, .f32⟩ : BufTy).Contents (Elt F) → (⟨S850000x128, .f32⟩ : BufTy).Contents (Elt F) → (⟨S850000x128, .f32⟩ : BufTy).Contents (Elt F))
  :: StableHlo.nullary main_cst_8 (constant S_ .f32 0x00000000#32)
  :: StableHlo.unary main_cst_8 main_v42 (broadcastInDim S50000x128 ![] bcast_S_S50000x128 : (⟨S_, .f32⟩ : BufTy).Contents (Elt F) → (⟨S50000x128, .f32⟩ : BufTy).Contents (Elt F))
  :: StableHlo.unary main_v6 main_v43 (broadcastInDim S850000x1 ![0] bcast_S850000_S850000x1_0 : (⟨S850000, .i32⟩ : BufTy).Contents (Elt F) → (⟨S850000x1, .i32⟩ : BufTy).Contents (Elt F))
  :: StableHlo.ternary main_v42 main_v43 main_v41 main_v44 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F))
  :: [] )

/-- 18 operations: the first layer's bias and ELU. -/
abbrev rops2 : List (HloOp τ sig (Elt F)) :=
  ( StableHlo.unary main_arg3 main_v45 (broadcastInDim S1x128 ![1] bcast_S128_S1x128_1 : (⟨S128, .f32⟩ : BufTy).Contents (Elt F) → (⟨S1x128, .f32⟩ : BufTy).Contents (Elt F))
  :: StableHlo.unary main_v45 main_v46 (broadcastInDim S50000x128 ![0, 1] bcast_S1x128_S50000x128_0_1 : (⟨S1x128, .f32⟩ : BufTy).Contents (Elt F) → (⟨S50000x128, .f32⟩ : BufTy).Contents (Elt F))
  :: StableHlo.binary main_v44 main_v46 main_v47 (addf : (⟨S50000x128, .f32⟩ : BufTy).Contents (Elt F) → (⟨S50000x128, .f32⟩ : BufTy).Contents (Elt F) → (⟨S50000x128, .f32⟩ : BufTy).Contents (Elt F))
  :: StableHlo.TRef.nullary main_call1.cst (constant S_ .f32 0x00000000#32)
  :: StableHlo.TRef.unary main_call1.cst main_call1.v0 (broadcastInDim S50000x128 ![] bcast_S_S50000x128)
  :: StableHlo.TRef.binary (.of main_v47 : StableHlo.TRef sig ⟨S50000x128, .f32⟩) main_call1.v0 main_call1.v1 (cmpf .ogt)
  :: StableHlo.TRef.nullary main_call1.cst_0 (constant S_ .f32 0x00000000#32)
  :: StableHlo.TRef.unary main_call1.cst_0 main_call1.v2 (broadcastInDim S50000x128 ![] bcast_S_S50000x128)
  :: StableHlo.TRef.binary (.of main_v47 : StableHlo.TRef sig ⟨S50000x128, .f32⟩) main_call1.v2 main_call1.v3 (cmpf .ogt)
  :: StableHlo.TRef.nullary main_call1.cst_1 (constant S_ .f32 0x00000000#32)
  :: StableHlo.TRef.unary main_call1.cst_1 main_call1.call0.v0 id
  :: StableHlo.TRef.unary main_call1.call0.v0 main_call1.call0.v1 (broadcastInDim S50000x128 ![] bcast_S_S50000x128)
  :: StableHlo.TRef.ternary main_call1.v3 main_call1.call0.v1 (.of main_v47 : StableHlo.TRef sig ⟨S50000x128, .f32⟩) main_call1.call0.v2 select
  :: StableHlo.TRef.unary main_call1.call0.v2 main_call1.v5 Host.expm1
  :: StableHlo.TRef.nullary main_call1.cst_2 (constant S_ .f32 0x3F800000#32)
  :: StableHlo.TRef.unary main_call1.cst_2 main_call1.v6 (broadcastInDim S50000x128 ![] bcast_S_S50000x128)
  :: StableHlo.TRef.binary main_call1.v6 main_call1.v5 main_call1.v7 mulf
  :: StableHlo.TRef.ternary main_call1.v1 (.of main_v47 : StableHlo.TRef sig ⟨S50000x128, .f32⟩) main_call1.v7 main_call1.call1.v0 select
  :: [] )

/-- 1 operations: the second layer's product. -/
abbrev rops3 : List (HloOp τ sig (Elt F)) :=
  ( StableHlo.binary main_v48 main_arg4 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: [] )

/-- 48 operations: the second layer's degrees, normalisation, gather, scaling and scatter-add. -/
abbrev rops4 : List (HloOp τ sig (Elt F)) :=
  ( StableHlo.nullary main_cst_9 (constant S_ .f32 0x3F800000#32)
  :: StableHlo.unary main_cst_9 main_v50 (broadcastInDim S850000 ![] bcast_S_S850000 : (⟨S_, .f32⟩ : BufTy).Contents (Elt F) → (⟨S850000, .f32⟩ : BufTy).Contents (Elt F))
  :: StableHlo.nullary main_cst_10 (constant S_ .f32 0x00000000#32)
  :: StableHlo.unary main_cst_10 main_v51 (broadcastInDim S50000 ![] bcast_S_S50000 : (⟨S_, .f32⟩ : BufTy).Contents (Elt F) → (⟨S50000, .f32⟩ : BufTy).Contents (Elt F))
  :: StableHlo.unary main_v6 main_v52 (broadcastInDim S850000x1 ![0] bcast_S850000_S850000x1_0 : (⟨S850000, .i32⟩ : BufTy).Contents (Elt F) → (⟨S850000x1, .i32⟩ : BufTy).Contents (Elt F))
  :: StableHlo.ternary main_v51 main_v52 main_v50 main_v53 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F))
  :: StableHlo.nullary main_cst_11 (constant S_ .f32 0x00000000#32)
  :: StableHlo.unary main_cst_11 main_v54 (broadcastInDim S50000 ![] bcast_S_S50000 : (⟨S_, .f32⟩ : BufTy).Contents (Elt F) → (⟨S50000, .f32⟩ : BufTy).Contents (Elt F))
  :: StableHlo.binary main_v53 main_v54 main_v55 (cmpf .ogt : (⟨S50000, .f32⟩ : BufTy).Contents (Elt F) → (⟨S50000, .f32⟩ : BufTy).Contents (Elt F) → (⟨S50000, .i1⟩ : BufTy).Contents (Elt F))
  :: StableHlo.unary main_v53 main_v56 (Host.rsqrt : (⟨S50000, .f32⟩ : BufTy).Contents (Elt F) → (⟨S50000, .f32⟩ : BufTy).Contents (Elt F))
  :: StableHlo.nullary main_cst_12 (constant S_ .f32 0x00000000#32)
  :: StableHlo.unary main_cst_12 main_v57 (broadcastInDim S50000 ![] bcast_S_S50000 : (⟨S_, .f32⟩ : BufTy).Contents (Elt F) → (⟨S50000, .f32⟩ : BufTy).Contents (Elt F))
  :: StableHlo.TRef.ternary (.of main_v55 : StableHlo.TRef sig ⟨S50000, .i1⟩) (.of main_v56 : StableHlo.TRef sig ⟨S50000, .f32⟩) (.of main_v57 : StableHlo.TRef sig ⟨S50000, .f32⟩) main_call2.v0 select
  :: StableHlo.nullary main_c_13 (constantI S_ 32 0#32)
  :: StableHlo.unary main_c_13 main_v59 (broadcastInDim S850000 ![] bcast_S_S850000 : (⟨S_, .i32⟩ : BufTy).Contents (Elt F) → (⟨S850000, .i32⟩ : BufTy).Contents (Elt F))
  :: StableHlo.binary main_v3 main_v59 main_v60 (cmpi .slt : (⟨S850000, .i32⟩ : BufTy).Contents (Elt F) → (⟨S850000, .i32⟩ : BufTy).Contents (Elt F) → (⟨S850000, .i1⟩ : BufTy).Contents (Elt F))
  :: StableHlo.nullary main_c_14 (constantI S_ 32 50000#32)
  :: StableHlo.unary main_c_14 main_v61 (broadcastInDim S850000 ![] bcast_S_S850000 : (⟨S_, .i32⟩ : BufTy).Contents (Elt F) → (⟨S850000, .i32⟩ : BufTy).Contents (Elt F))
  :: StableHlo.binary main_v3 main_v61 main_v62 (addi : (⟨S850000, .i32⟩ : BufTy).Contents (Elt F) → (⟨S850000, .i32⟩ : BufTy).Contents (Elt F) → (⟨S850000, .i32⟩ : BufTy).Contents (Elt F))
  :: StableHlo.ternary main_v60 main_v62 main_v3 main_v63 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v63 main_v64 (broadcastInDim S850000x1 ![0] bcast_S850000_S850000x1_0 : (⟨S850000, .i32⟩ : BufTy).Contents (Elt F) → (⟨S850000x1, .i32⟩ : BufTy).Contents (Elt F))
  :: StableHlo.binary main_v58 main_v64 main_v65 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))
  :: StableHlo.nullary main_c_15 (constantI S_ 32 0#32)
  :: StableHlo.unary main_c_15 main_v66 (broadcastInDim S850000 ![] bcast_S_S850000 : (⟨S_, .i32⟩ : BufTy).Contents (Elt F) → (⟨S850000, .i32⟩ : BufTy).Contents (Elt F))
  :: StableHlo.binary main_v6 main_v66 main_v67 (cmpi .slt : (⟨S850000, .i32⟩ : BufTy).Contents (Elt F) → (⟨S850000, .i32⟩ : BufTy).Contents (Elt F) → (⟨S850000, .i1⟩ : BufTy).Contents (Elt F))
  :: StableHlo.nullary main_c_16 (constantI S_ 32 50000#32)
  :: StableHlo.unary main_c_16 main_v68 (broadcastInDim S850000 ![] bcast_S_S850000 : (⟨S_, .i32⟩ : BufTy).Contents (Elt F) → (⟨S850000, .i32⟩ : BufTy).Contents (Elt F))
  :: StableHlo.binary main_v6 main_v68 main_v69 (addi : (⟨S850000, .i32⟩ : BufTy).Contents (Elt F) → (⟨S850000, .i32⟩ : BufTy).Contents (Elt F) → (⟨S850000, .i32⟩ : BufTy).Contents (Elt F))
  :: StableHlo.ternary main_v67 main_v69 main_v6 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v70 main_v71 (broadcastInDim S850000x1 ![0] bcast_S850000_S850000x1_0 : (⟨S850000, .i32⟩ : BufTy).Contents (Elt F) → (⟨S850000x1, .i32⟩ : BufTy).Contents (Elt F))
  :: StableHlo.binary main_v58 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))
  :: StableHlo.binary main_v65 main_v72 main_v73 (mulf : (⟨S850000, .f32⟩ : BufTy).Contents (Elt F) → (⟨S850000, .f32⟩ : BufTy).Contents (Elt F) → (⟨S850000, .f32⟩ : BufTy).Contents (Elt F))
  :: StableHlo.nullary main_c_17 (constantI S_ 32 0#32)
  :: StableHlo.unary main_c_17 main_v74 (broadcastInDim S850000 ![] bcast_S_S850000 : (⟨S_, .i32⟩ : BufTy).Contents (Elt F) → (⟨S850000, .i32⟩ : BufTy).Contents (Elt F))
  :: StableHlo.binary main_v3 main_v74 main_v75 (cmpi .slt : (⟨S850000, .i32⟩ : BufTy).Contents (Elt F) → (⟨S850000, .i32⟩ : BufTy).Contents (Elt F) → (⟨S850000, .i1⟩ : BufTy).Contents (Elt F))
  :: StableHlo.nullary main_c_18 (constantI S_ 32 50000#32)
  :: StableHlo.unary main_c_18 main_v76 (broadcastInDim S850000 ![] bcast_S_S850000 : (⟨S_, .i32⟩ : BufTy).Contents (Elt F) → (⟨S850000, .i32⟩ : BufTy).Contents (Elt F))
  :: StableHlo.binary main_v3 main_v76 main_v77 (addi : (⟨S850000, .i32⟩ : BufTy).Contents (Elt F) → (⟨S850000, .i32⟩ : BufTy).Contents (Elt F) → (⟨S850000, .i32⟩ : BufTy).Contents (Elt F))
  :: StableHlo.ternary main_v75 main_v77 main_v3 main_v78 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v78 main_v79 (broadcastInDim S850000x1 ![0] bcast_S850000_S850000x1_0 : (⟨S850000, .i32⟩ : BufTy).Contents (Elt F) → (⟨S850000x1, .i32⟩ : BufTy).Contents (Elt F))
  :: StableHlo.binary main_v49 main_v79 main_v80 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F))
  :: StableHlo.unary main_v73 main_v81 (broadcastInDim S850000x1 ![0] bcast_S850000_S850000x1_0 : (⟨S850000, .f32⟩ : BufTy).Contents (Elt F) → (⟨S850000x1, .f32⟩ : BufTy).Contents (Elt F))
  :: StableHlo.unary main_v81 main_v82 (broadcastInDim S850000x128 ![0, 1] bcast_S850000x1_S850000x128_0_1 : (⟨S850000x1, .f32⟩ : BufTy).Contents (Elt F) → (⟨S850000x128, .f32⟩ : BufTy).Contents (Elt F))
  :: StableHlo.binary main_v80 main_v82 main_v83 (mulf : (⟨S850000x128, .f32⟩ : BufTy).Contents (Elt F) → (⟨S850000x128, .f32⟩ : BufTy).Contents (Elt F) → (⟨S850000x128, .f32⟩ : BufTy).Contents (Elt F))
  :: StableHlo.nullary main_cst_19 (constant S_ .f32 0x00000000#32)
  :: StableHlo.unary main_cst_19 main_v84 (broadcastInDim S50000x128 ![] bcast_S_S50000x128 : (⟨S_, .f32⟩ : BufTy).Contents (Elt F) → (⟨S50000x128, .f32⟩ : BufTy).Contents (Elt F))
  :: StableHlo.unary main_v6 main_v85 (broadcastInDim S850000x1 ![0] bcast_S850000_S850000x1_0 : (⟨S850000, .i32⟩ : BufTy).Contents (Elt F) → (⟨S850000x1, .i32⟩ : BufTy).Contents (Elt F))
  :: StableHlo.ternary main_v84 main_v85 main_v83 main_v86 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F))
  :: [] )

/-- 18 operations: the second layer's bias and ELU. -/
abbrev rops5 : List (HloOp τ sig (Elt F)) :=
  ( StableHlo.unary main_arg5 main_v87 (broadcastInDim S1x128 ![1] bcast_S128_S1x128_1 : (⟨S128, .f32⟩ : BufTy).Contents (Elt F) → (⟨S1x128, .f32⟩ : BufTy).Contents (Elt F))
  :: StableHlo.unary main_v87 main_v88 (broadcastInDim S50000x128 ![0, 1] bcast_S1x128_S50000x128_0_1 : (⟨S1x128, .f32⟩ : BufTy).Contents (Elt F) → (⟨S50000x128, .f32⟩ : BufTy).Contents (Elt F))
  :: StableHlo.binary main_v86 main_v88 main_v89 (addf : (⟨S50000x128, .f32⟩ : BufTy).Contents (Elt F) → (⟨S50000x128, .f32⟩ : BufTy).Contents (Elt F) → (⟨S50000x128, .f32⟩ : BufTy).Contents (Elt F))
  :: StableHlo.TRef.nullary main_call3.cst (constant S_ .f32 0x00000000#32)
  :: StableHlo.TRef.unary main_call3.cst main_call3.v0 (broadcastInDim S50000x128 ![] bcast_S_S50000x128)
  :: StableHlo.TRef.binary (.of main_v89 : StableHlo.TRef sig ⟨S50000x128, .f32⟩) main_call3.v0 main_call3.v1 (cmpf .ogt)
  :: StableHlo.TRef.nullary main_call3.cst_0 (constant S_ .f32 0x00000000#32)
  :: StableHlo.TRef.unary main_call3.cst_0 main_call3.v2 (broadcastInDim S50000x128 ![] bcast_S_S50000x128)
  :: StableHlo.TRef.binary (.of main_v89 : StableHlo.TRef sig ⟨S50000x128, .f32⟩) main_call3.v2 main_call3.v3 (cmpf .ogt)
  :: StableHlo.TRef.nullary main_call3.cst_1 (constant S_ .f32 0x00000000#32)
  :: StableHlo.TRef.unary main_call3.cst_1 main_call3.call0.v0 id
  :: StableHlo.TRef.unary main_call3.call0.v0 main_call3.call0.v1 (broadcastInDim S50000x128 ![] bcast_S_S50000x128)
  :: StableHlo.TRef.ternary main_call3.v3 main_call3.call0.v1 (.of main_v89 : StableHlo.TRef sig ⟨S50000x128, .f32⟩) main_call3.call0.v2 select
  :: StableHlo.TRef.unary main_call3.call0.v2 main_call3.v5 Host.expm1
  :: StableHlo.TRef.nullary main_call3.cst_2 (constant S_ .f32 0x3F800000#32)
  :: StableHlo.TRef.unary main_call3.cst_2 main_call3.v6 (broadcastInDim S50000x128 ![] bcast_S_S50000x128)
  :: StableHlo.TRef.binary main_call3.v6 main_call3.v5 main_call3.v7 mulf
  :: StableHlo.TRef.ternary main_call3.v1 (.of main_v89 : StableHlo.TRef sig ⟨S50000x128, .f32⟩) main_call3.v7 main_call3.call1.v0 select
  :: [] )

end Cert.ReferenceIdeal.Hand

end
-- ==== Proof.RefKept.lean ====
/-
  The reference never writes an argument: read through all six of its stretches, each argument buffer holds what it
  held at launch.
-/
import proofs.«168945_j53094385713941_1_alg».proof.Proof.RefOps

set_option maxRecDepth 16384

noncomputable section

namespace Cert.Hand

open Idealize.ShloMosaic Idealize.ShloMosaic.TcCoe Idealize.SL.Sem Idealize.ShloMosaic.StableHlo

variable {F : FTy → Type} [FloatOps F]
variable (W' : Valuation Cert.ReferenceIdeal.τ Cert.ReferenceIdeal.sig (Elt F))

set_option maxHeartbeats 4000000 in
/-- No operation of the reference writes argument 0. -/
theorem ref_kept_main_arg0 :
    after Cert.ReferenceIdeal.Hand.rops5 (after Cert.ReferenceIdeal.Hand.rops4 (after Cert.ReferenceIdeal.Hand.rops3 (after Cert.ReferenceIdeal.Hand.rops2 (after Cert.ReferenceIdeal.Hand.rops1 (after Cert.ReferenceIdeal.Hand.rops0 W'))))) (Proc.devRef .tc Cert.ReferenceIdeal.main_arg0)
      = W' (Proc.devRef .tc Cert.ReferenceIdeal.main_arg0) := by
  after_results_simp

set_option maxHeartbeats 4000000 in
/-- No operation of the reference writes argument 1. -/
theorem ref_kept_main_arg1 :
    after Cert.ReferenceIdeal.Hand.rops5 (after Cert.ReferenceIdeal.Hand.rops4 (after Cert.ReferenceIdeal.Hand.rops3 (after Cert.ReferenceIdeal.Hand.rops2 (after Cert.ReferenceIdeal.Hand.rops1 (after Cert.ReferenceIdeal.Hand.rops0 W'))))) (Proc.devRef .tc Cert.ReferenceIdeal.main_arg1)
      = W' (Proc.devRef .tc Cert.ReferenceIdeal.main_arg1) := by
  after_results_simp

set_option maxHeartbeats 4000000 in
/-- No operation of the reference writes argument 2. -/
theorem ref_kept_main_arg2 :
    after Cert.ReferenceIdeal.Hand.rops5 (after Cert.ReferenceIdeal.Hand.rops4 (after Cert.ReferenceIdeal.Hand.rops3 (after Cert.ReferenceIdeal.Hand.rops2 (after Cert.ReferenceIdeal.Hand.rops1 (after Cert.ReferenceIdeal.Hand.rops0 W'))))) (Proc.devRef .tc Cert.ReferenceIdeal.main_arg2)
      = W' (Proc.devRef .tc Cert.ReferenceIdeal.main_arg2) := by
  after_results_simp

set_option maxHeartbeats 4000000 in
/-- No operation of the reference writes argument 3. -/
theorem ref_kept_main_arg3 :
    after Cert.ReferenceIdeal.Hand.rops5 (after Cert.ReferenceIdeal.Hand.rops4 (after Cert.ReferenceIdeal.Hand.rops3 (after Cert.ReferenceIdeal.Hand.rops2 (after Cert.ReferenceIdeal.Hand.rops1 (after Cert.ReferenceIdeal.Hand.rops0 W'))))) (Proc.devRef .tc Cert.ReferenceIdeal.main_arg3)
      = W' (Proc.devRef .tc Cert.ReferenceIdeal.main_arg3) := by
  after_results_simp

set_option maxHeartbeats 4000000 in
/-- No operation of the reference writes argument 4. -/
theorem ref_kept_main_arg4 :
    after Cert.ReferenceIdeal.Hand.rops5 (after Cert.ReferenceIdeal.Hand.rops4 (after Cert.ReferenceIdeal.Hand.rops3 (after Cert.ReferenceIdeal.Hand.rops2 (after Cert.ReferenceIdeal.Hand.rops1 (after Cert.ReferenceIdeal.Hand.rops0 W'))))) (Proc.devRef .tc Cert.ReferenceIdeal.main_arg4)
      = W' (Proc.devRef .tc Cert.ReferenceIdeal.main_arg4) := by
  after_results_simp

set_option maxHeartbeats 4000000 in
/-- No operation of the reference writes argument 5. -/
theorem ref_kept_main_arg5 :
    after Cert.ReferenceIdeal.Hand.rops5 (after Cert.ReferenceIdeal.Hand.rops4 (after Cert.ReferenceIdeal.Hand.rops3 (after Cert.ReferenceIdeal.Hand.rops2 (after Cert.ReferenceIdeal.Hand.rops1 (after Cert.ReferenceIdeal.Hand.rops0 W'))))) (Proc.devRef .tc Cert.ReferenceIdeal.main_arg5)
      = W' (Proc.devRef .tc Cert.ReferenceIdeal.main_arg5) := by
  after_results_simp

end Cert.Hand

end
-- ==== Proof.Stretch.lean ====
/-
  The host stretches of the two programs, read over arbitrary buffer contents.
  Outside the four dense stages both programs run the same StableHLO operations: from the edge list they build the source
  and target index vectors (each edge list followed by the 50000 self loops), and per layer they count in-degrees by a
  scatter-add of ones, take the reciprocal square root where the degree is positive, gather the two end-point factors of
  every edge, gather the rows of the transformed features by source, scale them, and scatter-add them by target. Each lemma
  below reads one such stretch as a function of the buffers it starts from, for any float instance, and states either that
  the two programs' stretches give the same array from agreeing inputs (the operation lists are the same operations in
  the same order, so after rewriting both sides to their composed terms the two terms coincide), or that a stretch
  leaves a buffer it never writes as it was.
-/
import proofs.«168945_j53094385713941_1_alg».proof.Proof.Gen.KernelIdeal.Launch
import proofs.«168945_j53094385713941_1_alg».proof.Proof.RefOps

set_option maxRecDepth 16384

noncomputable section

namespace Cert.Hand

open Idealize.ShloMosaic Idealize.ShloMosaic.TcCoe Idealize.SL.Sem Idealize.ShloMosaic.StableHlo

variable {F : FTy → Type} [FloatOps F]
variable (W : Valuation Cert.KernelIdeal.τ Cert.KernelIdeal.sig (Elt F)) (W' : Valuation Cert.ReferenceIdeal.τ Cert.ReferenceIdeal.sig (Elt F))

/-! ## The index vectors -/

set_option maxHeartbeats 4000000 in
/-- From the same edge list both programs build the same source vector. -/
theorem src_eq (h1 : W (Proc.devRef .tc Cert.KernelIdeal.main_arg1) = W' (Proc.devRef .tc Cert.ReferenceIdeal.main_arg1)) :
    after Cert.KernelIdeal.Gen.hostOps0 W (Proc.devRef .tc Cert.KernelIdeal.main_v3) = after Cert.ReferenceIdeal.Hand.rops0 W' (Proc.devRef .tc Cert.ReferenceIdeal.main_v3) := by
  after_results
  rw [h1]
  rfl

set_option maxHeartbeats 4000000 in
/-- From the same edge list both programs build the same target vector. -/
theorem dst_eq (h1 : W (Proc.devRef .tc Cert.KernelIdeal.main_arg1) = W' (Proc.devRef .tc Cert.ReferenceIdeal.main_arg1)) :
    after Cert.KernelIdeal.Gen.hostOps0 W (Proc.devRef .tc Cert.KernelIdeal.main_v6) = after Cert.ReferenceIdeal.Hand.rops0 W' (Proc.devRef .tc Cert.ReferenceIdeal.main_v6) := by
  after_results
  rw [h1]
  rfl

set_option maxHeartbeats 4000000 in
/-- Building the index vectors writes no word of `main_arg0`. -/
theorem k0_kept_main_arg0 : after Cert.KernelIdeal.Gen.hostOps0 W (Proc.devRef .tc Cert.KernelIdeal.main_arg0) = W (Proc.devRef .tc Cert.KernelIdeal.main_arg0) := by
  after_results_simp

set_option maxHeartbeats 4000000 in
/-- Building the index vectors writes no word of `main_arg2`. -/
theorem k0_kept_main_arg2 : after Cert.KernelIdeal.Gen.hostOps0 W (Proc.devRef .tc Cert.KernelIdeal.main_arg2) = W (Proc.devRef .tc Cert.KernelIdeal.main_arg2) := by
  after_results_simp

set_option maxHeartbeats 4000000 in
/-- Building the index vectors writes no word of `main_arg3`. -/
theorem k0_kept_main_arg3 : after Cert.KernelIdeal.Gen.hostOps0 W (Proc.devRef .tc Cert.KernelIdeal.main_arg3) = W (Proc.devRef .tc Cert.KernelIdeal.main_arg3) := by
  after_results_simp

set_option maxHeartbeats 4000000 in
/-- Building the index vectors writes no word of `main_arg4`. -/
theorem k0_kept_main_arg4 : after Cert.KernelIdeal.Gen.hostOps0 W (Proc.devRef .tc Cert.KernelIdeal.main_arg4) = W (Proc.devRef .tc Cert.KernelIdeal.main_arg4) := by
  after_results_simp

set_option maxHeartbeats 4000000 in
/-- Building the index vectors writes no word of `main_arg5`. -/
theorem k0_kept_main_arg5 : after Cert.KernelIdeal.Gen.hostOps0 W (Proc.devRef .tc Cert.KernelIdeal.main_arg5) = W (Proc.devRef .tc Cert.KernelIdeal.main_arg5) := by
  after_results_simp

set_option maxHeartbeats 4000000 in
/-- The stretch writes no word of `main_arg3`. -/
theorem r0_kept_main_arg3 : after Cert.ReferenceIdeal.Hand.rops0 W' (Proc.devRef .tc Cert.ReferenceIdeal.main_arg3) = W' (Proc.devRef .tc Cert.ReferenceIdeal.main_arg3) := by
  after_results_simp

set_option maxHeartbeats 4000000 in
/-- The stretch writes no word of `main_arg4`. -/
theorem r0_kept_main_arg4 : after Cert.ReferenceIdeal.Hand.rops0 W' (Proc.devRef .tc Cert.ReferenceIdeal.main_arg4) = W' (Proc.devRef .tc Cert.ReferenceIdeal.main_arg4) := by
  after_results_simp

set_option maxHeartbeats 4000000 in
/-- The stretch writes no word of `main_arg5`. -/
theorem r0_kept_main_arg5 : after Cert.ReferenceIdeal.Hand.rops0 W' (Proc.devRef .tc Cert.ReferenceIdeal.main_arg5) = W' (Proc.devRef .tc Cert.ReferenceIdeal.main_arg5) := by
  after_results_simp

set_option maxHeartbeats 4000000 in
/-- The reference's first stretch ends with the first layer's product of the launch arrays. -/
theorem r0_dot : after Cert.ReferenceIdeal.Hand.rops0 W' (Proc.devRef .tc Cert.ReferenceIdeal.main_v7)
    = Host.dotGeneral Cert.ReferenceIdeal.dot_S50000x128_S128x128_S50000x128_1_0_0_1_n_n none (W' (Proc.devRef .tc Cert.ReferenceIdeal.main_arg0)) (W' (Proc.devRef .tc Cert.ReferenceIdeal.main_arg2)) := by
  after_results_simp

/-! ## The first layer's gather and scatter -/

set_option maxHeartbeats 4000000 in
/-- From the same index vectors and the same transformed features, the two programs' first-layer stretches
    scatter-add the same array. -/
theorem mid1_eq (h3 : W (Proc.devRef .tc Cert.KernelIdeal.main_v3) = W' (Proc.devRef .tc Cert.ReferenceIdeal.main_v3)) (h6 : W (Proc.devRef .tc Cert.KernelIdeal.main_v6) = W' (Proc.devRef .tc Cert.ReferenceIdeal.main_v6))
    (h7 : W (Proc.devRef .tc Cert.KernelIdeal.main_v7) = W' (Proc.devRef .tc Cert.ReferenceIdeal.main_v7)) :
    after Cert.KernelIdeal.Gen.hostOps1_2 (after Cert.KernelIdeal.Gen.hostOps1_1 (after Cert.KernelIdeal.Gen.hostOps1 W)) (Proc.devRef .tc Cert.KernelIdeal.main_v44) = after Cert.ReferenceIdeal.Hand.rops1 W' (Proc.devRef .tc Cert.ReferenceIdeal.main_v44) := by
  after_results_simp
  rw [h3, h6, h7]
  rfl

set_option maxHeartbeats 4000000 in
/-- The kernel's first-layer stretch ends by laying the bias out as one row. -/
theorem k1_bias : after Cert.KernelIdeal.Gen.hostOps1_2 (after Cert.KernelIdeal.Gen.hostOps1_1 (after Cert.KernelIdeal.Gen.hostOps1 W)) (Proc.devRef .tc Cert.KernelIdeal.main_v45)
    = shapeCast Cert.KernelIdeal.S1x128 (W (Proc.devRef .tc Cert.KernelIdeal.main_arg3)) Cert.KernelIdeal.Gen.shapeCasts_S128_S1x128 := by
  after_results_simp
  rfl

set_option maxHeartbeats 4000000 in
/-- The stretch writes no word of `main_v3`. -/
theorem k1_kept_main_v3 : after Cert.KernelIdeal.Gen.hostOps1_2 (after Cert.KernelIdeal.Gen.hostOps1_1 (after Cert.KernelIdeal.Gen.hostOps1 W)) (Proc.devRef .tc Cert.KernelIdeal.main_v3) = W (Proc.devRef .tc Cert.KernelIdeal.main_v3) := by
  after_results_simp

set_option maxHeartbeats 4000000 in
/-- The stretch writes no word of `main_v6`. -/
theorem k1_kept_main_v6 : after Cert.KernelIdeal.Gen.hostOps1_2 (after Cert.KernelIdeal.Gen.hostOps1_1 (after Cert.KernelIdeal.Gen.hostOps1 W)) (Proc.devRef .tc Cert.KernelIdeal.main_v6) = W (Proc.devRef .tc Cert.KernelIdeal.main_v6) := by
  after_results_simp

set_option maxHeartbeats 4000000 in
/-- The stretch writes no word of `main_arg4`. -/
theorem k1_kept_main_arg4 : after Cert.KernelIdeal.Gen.hostOps1_2 (after Cert.KernelIdeal.Gen.hostOps1_1 (after Cert.KernelIdeal.Gen.hostOps1 W)) (Proc.devRef .tc Cert.KernelIdeal.main_arg4) = W (Proc.devRef .tc Cert.KernelIdeal.main_arg4) := by
  after_results_simp

set_option maxHeartbeats 4000000 in
/-- The stretch writes no word of `main_arg5`. -/
theorem k1_kept_main_arg5 : after Cert.KernelIdeal.Gen.hostOps1_2 (after Cert.KernelIdeal.Gen.hostOps1_1 (after Cert.KernelIdeal.Gen.hostOps1 W)) (Proc.devRef .tc Cert.KernelIdeal.main_arg5) = W (Proc.devRef .tc Cert.KernelIdeal.main_arg5) := by
  after_results_simp

set_option maxHeartbeats 4000000 in
/-- The stretch writes no word of `main_v3`. -/
theorem r1_kept_main_v3 : after Cert.ReferenceIdeal.Hand.rops1 W' (Proc.devRef .tc Cert.ReferenceIdeal.main_v3) = W' (Proc.devRef .tc Cert.ReferenceIdeal.main_v3) := by
  after_results_simp

set_option maxHeartbeats 4000000 in
/-- The stretch writes no word of `main_v6`. -/
theorem r1_kept_main_v6 : after Cert.ReferenceIdeal.Hand.rops1 W' (Proc.devRef .tc Cert.ReferenceIdeal.main_v6) = W' (Proc.devRef .tc Cert.ReferenceIdeal.main_v6) := by
  after_results_simp

set_option maxHeartbeats 4000000 in
/-- The stretch writes no word of `main_arg3`. -/
theorem r1_kept_main_arg3 : after Cert.ReferenceIdeal.Hand.rops1 W' (Proc.devRef .tc Cert.ReferenceIdeal.main_arg3) = W' (Proc.devRef .tc Cert.ReferenceIdeal.main_arg3) := by
  after_results_simp

set_option maxHeartbeats 4000000 in
/-- The stretch writes no word of `main_arg4`. -/
theorem r1_kept_main_arg4 : after Cert.ReferenceIdeal.Hand.rops1 W' (Proc.devRef .tc Cert.ReferenceIdeal.main_arg4) = W' (Proc.devRef .tc Cert.ReferenceIdeal.main_arg4) := by
  after_results_simp

set_option maxHeartbeats 4000000 in
/-- The stretch writes no word of `main_arg5`. -/
theorem r1_kept_main_arg5 : after Cert.ReferenceIdeal.Hand.rops1 W' (Proc.devRef .tc Cert.ReferenceIdeal.main_arg5) = W' (Proc.devRef .tc Cert.ReferenceIdeal.main_arg5) := by
  after_results_simp

set_option maxHeartbeats 4000000 in
/-- The stretch writes no word of `main_v3`. -/
theorem r2_kept_main_v3 : after Cert.ReferenceIdeal.Hand.rops2 W' (Proc.devRef .tc Cert.ReferenceIdeal.main_v3) = W' (Proc.devRef .tc Cert.ReferenceIdeal.main_v3) := by
  after_results_simp

set_option maxHeartbeats 4000000 in
/-- The stretch writes no word of `main_v6`. -/
theorem r2_kept_main_v6 : after Cert.ReferenceIdeal.Hand.rops2 W' (Proc.devRef .tc Cert.ReferenceIdeal.main_v6) = W' (Proc.devRef .tc Cert.ReferenceIdeal.main_v6) := by
  after_results_simp

set_option maxHeartbeats 4000000 in
/-- The stretch writes no word of `main_arg4`. -/
theorem r2_kept_main_arg4 : after Cert.ReferenceIdeal.Hand.rops2 W' (Proc.devRef .tc Cert.ReferenceIdeal.main_arg4) = W' (Proc.devRef .tc Cert.ReferenceIdeal.main_arg4) := by
  after_results_simp

set_option maxHeartbeats 4000000 in
/-- The stretch writes no word of `main_arg5`. -/
theorem r2_kept_main_arg5 : after Cert.ReferenceIdeal.Hand.rops2 W' (Proc.devRef .tc Cert.ReferenceIdeal.main_arg5) = W' (Proc.devRef .tc Cert.ReferenceIdeal.main_arg5) := by
  after_results_simp

/-! ## The second layer -/

set_option maxHeartbeats 4000000 in
/-- The reference's second-layer product. -/
theorem r3_dot : after Cert.ReferenceIdeal.Hand.rops3 W' (Proc.devRef .tc Cert.ReferenceIdeal.main_v49)
    = Host.dotGeneral Cert.ReferenceIdeal.dot_S50000x128_S128x128_S50000x128_1_0_0_1_n_n none (W' (Proc.devRef .tc Cert.ReferenceIdeal.main_v48)) (W' (Proc.devRef .tc Cert.ReferenceIdeal.main_arg4)) := by
  after_results_simp

set_option maxHeartbeats 4000000 in
/-- The stretch writes no word of `main_v3`. -/
theorem r3_kept_main_v3 : after Cert.ReferenceIdeal.Hand.rops3 W' (Proc.devRef .tc Cert.ReferenceIdeal.main_v3) = W' (Proc.devRef .tc Cert.ReferenceIdeal.main_v3) := by
  after_results_simp

set_option maxHeartbeats 4000000 in
/-- The stretch writes no word of `main_v6`. -/
theorem r3_kept_main_v6 : after Cert.ReferenceIdeal.Hand.rops3 W' (Proc.devRef .tc Cert.ReferenceIdeal.main_v6) = W' (Proc.devRef .tc Cert.ReferenceIdeal.main_v6) := by
  after_results_simp

set_option maxHeartbeats 4000000 in
/-- The stretch writes no word of `main_arg5`. -/
theorem r3_kept_main_arg5 : after Cert.ReferenceIdeal.Hand.rops3 W' (Proc.devRef .tc Cert.ReferenceIdeal.main_arg5) = W' (Proc.devRef .tc Cert.ReferenceIdeal.main_arg5) := by
  after_results_simp

set_option maxHeartbeats 4000000 in
/-- From the same index vectors and the same transformed features, the two programs' second-layer stretches
    scatter-add the same array. -/
theorem mid2_eq (h3 : W (Proc.devRef .tc Cert.KernelIdeal.main_v3) = W' (Proc.devRef .tc Cert.ReferenceIdeal.main_v3)) (h6 : W (Proc.devRef .tc Cert.KernelIdeal.main_v6) = W' (Proc.devRef .tc Cert.ReferenceIdeal.main_v6))
    (h7 : W (Proc.devRef .tc Cert.KernelIdeal.main_v47) = W' (Proc.devRef .tc Cert.ReferenceIdeal.main_v49)) :
    after Cert.KernelIdeal.Gen.hostOps3_2 (after Cert.KernelIdeal.Gen.hostOps3_1 (after Cert.KernelIdeal.Gen.hostOps3 W)) (Proc.devRef .tc Cert.KernelIdeal.main_v84) = after Cert.ReferenceIdeal.Hand.rops4 W' (Proc.devRef .tc Cert.ReferenceIdeal.main_v86) := by
  after_results_simp
  rw [h3, h6, h7]
  rfl

set_option maxHeartbeats 4000000 in
/-- The kernel's second-layer stretch ends by laying the bias out as one row. -/
theorem k3_bias : after Cert.KernelIdeal.Gen.hostOps3_2 (after Cert.KernelIdeal.Gen.hostOps3_1 (after Cert.KernelIdeal.Gen.hostOps3 W)) (Proc.devRef .tc Cert.KernelIdeal.main_v85)
    = shapeCast Cert.KernelIdeal.S1x128 (W (Proc.devRef .tc Cert.KernelIdeal.main_arg5)) Cert.KernelIdeal.Gen.shapeCasts_S128_S1x128 := by
  after_results_simp
  rfl

set_option maxHeartbeats 4000000 in
/-- The stretch writes no word of `main_arg5`. -/
theorem r4_kept_main_arg5 : after Cert.ReferenceIdeal.Hand.rops4 W' (Proc.devRef .tc Cert.ReferenceIdeal.main_arg5) = W' (Proc.devRef .tc Cert.ReferenceIdeal.main_arg5) := by
  after_results_simp

end Cert.Hand

end
-- ==== Proof.Spec.lean ====
/-
  What the two layers' dense stages compute, as whole-array functions on the extended reals.
  `mm x w` is the plain matrix product: entry (r, j) is the sum over k of x(r, k) · w(k, j).
  `be a b` adds the row vector `b` to every row of `a` and applies ELU entrywise: v ↦ v when v > 0,
  and v ↦ eᵛ − 1 otherwise. Both programs are shown to compute these same two functions.
-/
import Idealize.ShloMosaic.PureOps.Ideal
import Idealize.ShloMosaic.Lib.ValueIdx

noncomputable section

open scoped BigOperators

namespace Cert.Spec

open Idealize.ShloMosaic Idealize.ShloMosaic.ValueIdx

/-- The node-feature arrays: 50000 nodes, 128 features. -/
abbrev SN : Shape := ⟨2, ![50000, 128]⟩
/-- A layer's weight matrix. -/
abbrev SW : Shape := ⟨2, ![128, 128]⟩
/-- A layer's bias as a one-row matrix. -/
abbrev SB : Shape := ⟨2, ![1, 128]⟩

/-- The matrix product: entry (r, j) is Σₖ x(r, k) · w(k, j). -/
def mm (x : FVec Ideal SN .f32) (w : FVec Ideal SW .f32) : FVec Ideal SN .f32 :=
  fun i => ∑ k : Fin 128, x (ix2 (i 0) k) * w (ix2 k (i 1))

/-- ELU on an extended real: the identity above zero, eᵛ − 1 at and below it. -/
def elu1 (v : EReal) : EReal := Scalar.select (Ideal.cmp .ogt v 0) v (Ideal.exp v - 1)

/-- Bias then ELU: entry (r, j) is ELU (a(r, j) + b(0, j)). -/
def be (a : FVec Ideal SN .f32) (b : FVec Ideal SB .f32) : FVec Ideal SN .f32 :=
  fun i => elu1 (a i + b (ix2 0 (i 1)))

end Cert.Spec

end
-- ==== Proof.MatmulValue.lean ====
/-
  The matrix-product stage of each layer, on both sides, on the extended reals.
  Kernel side: each of the ten grid points multiplies a block of 5000 rows of the operand by the whole 128×128 weight,
  into a zero accumulator (the rounding of the operands to bf16 is the identity here), and writes the block of the
  result back; the ten row blocks cover the array, so the array ends at the matrix product entry by entry.
  Reference side: the host's dot_general at an index is the same sum over the contracted axis.
-/
import proofs.«168945_j53094385713941_1_alg».proof.Proof.Gen.KernelIdeal.Frame
import proofs.«168945_j53094385713941_1_alg».proof.Proof.RefOps
import proofs.«168945_j53094385713941_1_alg».proof.Proof.Spec
import Idealize.ShloMosaic.Lib.Pipeline.Value
import Idealize.ShloMosaic.PureOps.Ideal.Laws

noncomputable section

open scoped BigOperators

namespace Cert.KernelIdeal.Hand
open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- The left operand's row is the result's row. -/
theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- The left operand's column is the contraction position. -/
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction position. -/
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the result's column. -/
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block product into the zero accumulator, at (p, q): the sum over k of x(p, k) · w(k, q). -/
theorem blkmm_apply (x0 : FVec Ideal S5000x128 .bf16) (x1 : FVec Ideal S128x128 .bf16) (p : Fin 5000) (q : Fin 128) :
    matmul (F := Ideal) dot_S5000x128_S128x128_S5000x128_1_0_0_1_n_n none x0 x1 (constant S5000x128 .f32 0x00000000#32) (ix2 p q)
      = ∑ k : Fin 128, x0 (ix2 p k) * x1 (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-- The payload of the product at (p, q). -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact blkmm_apply _ _ p q

/-- A block whose rows are rows of X, against a block that is W, gives at (p, q) the product's entry at that row and column q. -/
theorem pay0_mm (X : FVec Ideal Cert.Spec.SN .f32) (W : FVec Ideal Cert.Spec.SW .f32)
    (x0 : Vec Ideal S5000x128 .f32) (x1 : Vec Ideal S128x128 .f32) (p : Fin 5000) (q : Fin 128) (r : Fin 50000)
    (h0 : ∀ k : Fin 128, x0 (ix2 p k) = X (ix2 r k)) (h1 : ∀ k : Fin 128, x1 (ix2 k q) = W (ix2 k q)) :
    k0_pay1 (F := Ideal) x0 x1 (ix2 p q) = Cert.Spec.mm X W (ix2 r q) := by
  rw [pay0_apply]
  show _ = ∑ k : Fin 128, X (ix2 r k) * W (ix2 k q)
  exact Finset.sum_congr rfl fun k _ => by rw [h0 k, h1 k]

/-- The payload of the product at (p, q). -/
theorem pay2_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  rw [shapeCast_self]
  exact blkmm_apply _ _ p q

/-- A block whose rows are rows of X, against a block that is W, gives at (p, q) the product's entry at that row and column q. -/
theorem pay2_mm (X : FVec Ideal Cert.Spec.SN .f32) (W : FVec Ideal Cert.Spec.SW .f32)
    (x0 : Vec Ideal S5000x128 .f32) (x1 : Vec Ideal S128x128 .f32) (p : Fin 5000) (q : Fin 128) (r : Fin 50000)
    (h0 : ∀ k : Fin 128, x0 (ix2 p k) = X (ix2 r k)) (h1 : ∀ k : Fin 128, x1 (ix2 k q) = W (ix2 k q)) :
    k2_pay1 (F := Ideal) x0 x1 (ix2 p q) = Cert.Spec.mm X W (ix2 r q) := by
  rw [pay2_apply]
  show _ = ∑ k : Fin 128, X (ix2 r k) * W (ix2 k q)
  exact Finset.sum_congr rfl fun k _ => by rw [h0 k, h1 k]

/-- The zero offsets, as a constant function. -/
theorem mm_hz : (![0, 0] : Fin 2 → Nat) = fun _ => 0 := funext fun a => by fin_cases a <;> rfl

variable (V : (c : Dev nD) → (b : Ref sig .tc) → Buf (Elt Ideal) ((c : Thread nD τ).loc b))

/-! ## Region 0: from the blocks to the array -/

/-- The printed index maps over the grid: the operand's and the result's row blocks move with the point, the weight's block stays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The operand's block at point t is rows 5000·t … 5000·t + 4999 of the operand. -/
theorem iblk0_0_apply (c : Dev nD) (t : Fin cfg0.N) (p : Fin 5000) (k : Fin 128) (r : Fin 50000)
    (hr : r.val = 5000 * t.val + p.val) :
    (iblk0 V c 0 t : Vec Ideal S5000x128 .f32) (ix2 p k) = (V c main_arg0 : S50000x128.Idx → Elt Ideal .f32) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight's block at every point is the whole weight. -/
theorem iblk0_1_apply (c : Dev nD) (t : Fin cfg0.N) (k : Fin 128) (q : Fin 128) :
    (iblk0 V c 1 t : Vec Ideal S128x128 .f32) (ix2 k q) = (V c main_arg2 : S128x128.Idx → Elt Ideal .f32) (ix2 k q) := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of the matrix product of the two arrays as the region finds them. -/
theorem flushed0_eq (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero mm_hz]
  simp only [View.ld_unit_zero (S := S5000x128) mm_hz, View.ld_unit_zero (S := S128x128) mm_hz]
  funext j
  obtain ⟨p, q, rfl⟩ : ∃ (p : Fin 5000) (q : Fin 128), j = ix2 p q := ⟨j 0, j 1, eq_ix2 j⟩
  have hN : cfg0.N = 10 := N_0
  have ht : t.val < 10 := hN ▸ t.isLt
  obtain ⟨-, -, -, -, e4, e5⟩ := idx_facts0 t
  refine (pay0_mm (V c main_arg0) (V c main_arg2) (iblk0 V c 0 t) (iblk0 V c 1 t) p q ⟨5000 * t.val + p.val, by omega⟩
    (fun k => iblk0_0_apply V c t p k _ rfl) (fun k => iblk0_1_apply V c t k q)).trans ?_
  rw [View.read_apply]
  refine congrArg (Cert.Spec.mm (V c main_arg0) (V c main_arg2)) ?_
  funext a
  apply Fin.ext
  match a with
  | ⟨0, _⟩ => show 5000 * t.val + p.val = win0_2.index t (0 : Fin 2) * 5000 + 1 * p.val; rw [e4]; omega
  | ⟨1, _⟩ => show q.val = win0_2.index t (1 : Fin 2) * 128 + 1 * q.val; rw [e5]; omega

/-- An index of the result array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v7).slice (win0_2.rect t)).set ↔ _
  rw [View.set_slice_whole, Rect.mem_set_unit]
  exact Iff.rfl

/-- Row r is in the block of point r / 5000: the ten row blocks cover the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  have hlt : (i 0).val / 5000 < cfg0.N := by show _ < grid0.N; rw [hN]; omega
  obtain ⟨-, -, -, -, e4, e5⟩ := idx_facts0 ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [mem_blk0]
  intro a
  match a with
  | ⟨0, _⟩ =>
    show win0_2.index _ (0 : Fin 2) * 5000 ≤ (i 0).val ∧ (i 0).val < win0_2.index _ (0 : Fin 2) * 5000 + 5000
    rw [e4']; omega
  | ⟨1, _⟩ =>
    show win0_2.index _ (1 : Fin 2) * 128 ≤ (i 1).val ∧ (i 1).val < win0_2.index _ (1 : Fin 2) * 128 + 128
    rw [e5]; omega

/-- The result array after the region is the matrix product of the two arrays as the region finds them. -/
theorem region0_value (c : Dev nD) :
    (dat0 (F := Ideal) V c).arrAt 2 cfg0.N = Cert.Spec.mm (V c main_arg0) (V c main_arg2) :=
  (dat0 V c).arrAt_eq_of_cover 2 (Cert.Spec.mm (V c main_arg0) (V c main_arg2)) (fun t _ => flushed0_eq V c t) (cover0)

/-! ## Region 2: from the blocks to the array -/

/-- The printed index maps over the grid: the operand's and the result's row blocks move with the point, the weight's block stays. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The operand's block at point t is rows 5000·t … 5000·t + 4999 of the operand. -/
theorem iblk2_0_apply (c : Dev nD) (t : Fin cfg2.N) (p : Fin 5000) (k : Fin 128) (r : Fin 50000)
    (hr : r.val = 5000 * t.val + p.val) :
    (iblk2 V c 0 t : Vec Ideal S5000x128 .f32) (ix2 p k) = (V c main_v46 : S50000x128.Idx → Elt Ideal .f32) (ix2 r k) := by
  obtain ⟨e0, e1, -⟩ := idx_facts2 t
  unfold iblk2
  rw [View.read_apply]
  show V c main_v46 _ = V c main_v46 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The weight's block at every point is the whole weight. -/
theorem iblk2_1_apply (c : Dev nD) (t : Fin cfg2.N) (k : Fin 128) (q : Fin 128) :
    (iblk2 V c 1 t : Vec Ideal S128x128 .f32) (ix2 k q) = (V c main_arg4 : S128x128.Idx → Elt Ideal .f32) (ix2 k q) := by
  obtain ⟨-, -, e2, e3, -⟩ := idx_facts2 t
  unfold iblk2
  rw [View.read_apply]
  show V c main_arg4 _ = V c main_arg4 _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- What point t writes back is block t of the matrix product of the two arrays as the region finds them. -/
theorem flushed2_eq (c : Dev nD) (t : Fin cfg2.N) :
    (dat2 (F := Ideal) V c).flushed 2 t
      = ((cfg2.win 2).blk t).view.read (Elt Ideal) (Cert.Spec.mm (V c main_v46) (V c main_arg4)) := by
  show (cfg2.win 2).cut (grid2.coords t) ((dat2 V c).after 2 t) = _
  rw [after2_2]
  unfold out2_2
  rw [View.canon_unit_zero mm_hz]
  simp only [View.ld_unit_zero (S := S5000x128) mm_hz, View.ld_unit_zero (S := S128x128) mm_hz]
  funext j
  obtain ⟨p, q, rfl⟩ : ∃ (p : Fin 5000) (q : Fin 128), j = ix2 p q := ⟨j 0, j 1, eq_ix2 j⟩
  have hN : cfg2.N = 10 := N_2
  have ht : t.val < 10 := hN ▸ t.isLt
  obtain ⟨-, -, -, -, e4, e5⟩ := idx_facts2 t
  refine (pay2_mm (V c main_v46) (V c main_arg4) (iblk2 V c 0 t) (iblk2 V c 1 t) p q ⟨5000 * t.val + p.val, by omega⟩
    (fun k => iblk2_0_apply V c t p k _ rfl) (fun k => iblk2_1_apply V c t k q)).trans ?_
  rw [View.read_apply]
  refine congrArg (Cert.Spec.mm (V c main_v46) (V c main_arg4)) ?_
  funext a
  apply Fin.ext
  match a with
  | ⟨0, _⟩ => show 5000 * t.val + p.val = win2_2.index t (0 : Fin 2) * 5000 + 1 * p.val; rw [e4]; omega
  | ⟨1, _⟩ => show q.val = win2_2.index t (1 : Fin 2) * 128 + 1 * q.val; rw [e5]; omega

/-- An index of the result array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v47).slice (win2_2.rect t)).set ↔ _
  rw [View.set_slice_whole, Rect.mem_set_unit]
  exact Iff.rfl

/-- Row r is in the block of point r / 5000: the ten row blocks cover the array. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  have hlt : (i 0).val / 5000 < cfg2.N := by show _ < grid2.N; rw [hN]; omega
  obtain ⟨-, -, -, -, e4, e5⟩ := idx_facts2 ⟨(i 0).val / 5000, hlt⟩
  have e4' : win2_2.index ⟨(i 0).val / 5000, hlt⟩ (0 : Fin 2) = (i 0).val / 5000 := e4
  refine ⟨⟨(i 0).val / 5000, hlt⟩, flush2_2 _, ?_⟩
  rw [mem_blk2]
  intro a
  match a with
  | ⟨0, _⟩ =>
    show win2_2.index _ (0 : Fin 2) * 5000 ≤ (i 0).val ∧ (i 0).val < win2_2.index _ (0 : Fin 2) * 5000 + 5000
    rw [e4']; omega
  | ⟨1, _⟩ =>
    show win2_2.index _ (1 : Fin 2) * 128 ≤ (i 1).val ∧ (i 1).val < win2_2.index _ (1 : Fin 2) * 128 + 128
    rw [e5]; omega

/-- The result array after the region is the matrix product of the two arrays as the region finds them. -/
theorem region2_value (c : Dev nD) :
    (dat2 (F := Ideal) V c).arrAt 2 cfg2.N = Cert.Spec.mm (V c main_v46) (V c main_arg4) :=
  (dat2 V c).arrAt_eq_of_cover 2 (Cert.Spec.mm (V c main_v46) (V c main_arg4)) (fun t _ => flushed2_eq V c t) (cover2)

end Cert.KernelIdeal.Hand

namespace Cert.ReferenceIdeal.Hand
open Cert.ReferenceIdeal Cert.ReferenceIdeal.Gen Idealize.ShloMosaic Idealize.ShloMosaic.TcCoe Idealize.SL.Sem
open Idealize.ShloMosaic.ValueIdx

/-! ## The host's product at an index -/

/-- The left operand's row is the result's row. -/
theorem lhs_ref_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
/-- The left operand's column is the contraction position. -/
theorem lhs_ref_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
/-- The right operand's row is the contraction position. -/
theorem rhs_ref_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
/-- The right operand's column is the result's column. -/
theorem rhs_ref_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The host's dot_general is the matrix product, entry by entry. -/
theorem dot_eq_mm (x : FVec Ideal S50000x128 .f32) (w : FVec Ideal S128x128 .f32) :
    Host.dotGeneral dot_S50000x128_S128x128_S50000x128_1_0_0_1_n_n none x w = Cert.Spec.mm x w := by
  funext i
  obtain ⟨r, q, rfl⟩ : ∃ (r : Fin 50000) (q : Fin 128), i = ix2 r q := ⟨i 0, i 1, eq_ix2 i⟩
  show _ = ∑ k : Fin 128, x (ix2 r k) * w (ix2 k q)
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r q) ((contrEquiv1 dot_S50000x128_S128x128_S50000x128_1_0_0_1_n_n 128 rfl rfl).symm k) = ix2 r k := funext fun a => Fin.ext (by
    match a with
    | ⟨0, _⟩ => exact lhs_ref_0 _ _
    | ⟨1, _⟩ => exact (lhs_ref_1 _ _).trans hk)
  have er : dot_S50000x128_S128x128_S50000x128_1_0_0_1_n_n.rhsIdx (ix2 r q) ((contrEquiv1 dot_S50000x128_S128x128_S50000x128_1_0_0_1_n_n 128 rfl rfl).symm k) = ix2 k q := funext fun a => Fin.ext (by
    match a with
    | ⟨0, _⟩ => exact (rhs_ref_0 _ _).trans hk
    | ⟨1, _⟩ => exact rhs_ref_1 _ _)
  rw [el, er]

end Cert.ReferenceIdeal.Hand

end
-- ==== Proof.BiasEluValue.lean ====
/-
  The bias + ELU stage of each layer, on both sides, at the ideal values: each computes the one function
  `Cert.Spec.be a b`, whose entry (r, q) is ELU (a(r, q) + b(0, q)), ELU v being v above zero and eᵛ − 1 otherwise.

  Kernel (regions 1 and 3). Each of the 10 grid points loads a block of 5000 rows and the whole 1×128 bias row and
  stores select (v > 0) v (exp v − 1) of v = block + bias row broadcast over the rows. At an index (p, q) of the block
  that is ELU of the block's entry plus the bias entry at q (the words 0.0 and 1.0 are the extended reals 0 and 1). Point t's
  input and output blocks are rows 5000·t … 5000·t + 4999 of their arrays, so what it writes back is block t of `be` of
  the whole arrays; row r lies in block r / 5000, so the ten blocks cover the output array, which therefore ends at `be`.

  Reference (the third and sixth stretches of its operations). The bias vector is made a one-row matrix, broadcast over the 50000
  rows and added; then where (v > 0, v, 1.0 · expm1 (where (v > 0, 0.0, v))) with its constants broadcast. Entrywise: above
  zero both sides are v; otherwise the inner choice is v and 1 · (eᵛ − 1) = eᵛ − 1.
-/
import proofs.«168945_j53094385713941_1_alg».proof.Proof.Gen.KernelIdeal.Frame
import proofs.«168945_j53094385713941_1_alg».proof.Proof.RefOps
import proofs.«168945_j53094385713941_1_alg».proof.Proof.Spec
import Idealize.ShloMosaic.Lib.Pipeline.Value
import Idealize.ShloMosaic.Lib.ValueLayout
import Idealize.ShloMosaic.PureOps.Ideal.Laws

noncomputable section

namespace Cert.BiasElu
open Idealize.ShloMosaic Idealize.ShloMosaic.ValueIdx

/-- The f32 word of 1.0 is the extended real 1. -/
theorem ofBits_one_f32 : Ideal.ofBits .f32 0x3F800000#32 = 1 := by
  simp [Ideal.ofBits, Ideal.ieee]
  rw [← EReal.coe_mul, ← EReal.coe_one]
  congr 1
  norm_num

/-- The kernel's element: select (v > 0.0) v (exp v − 1.0) is ELU of v. -/
theorem kernel_word (v : EReal) :
    Scalar.select (FloatOps.cmpf (F := Ideal) (φ := .f32) .ogt v (FloatOps.ofBits (F := Ideal) .f32 0x00000000#32)) v
      (FloatOps.exp (F := Ideal) (φ := .f32) v - FloatOps.ofBits (F := Ideal) .f32 0x3F800000#32) = Cert.Spec.elu1 v := by
  unfold Cert.Spec.elu1
  rw [Ideal.ofBits_def, Ideal.ofBits_def, Ideal.ofBits_zero_f32, ofBits_one_f32]
  rfl

/-- The reference's element: where (v > 0, v, 1.0 · expm1 (where (v > 0, 0.0, v))) is ELU of v: above zero both are v;
    otherwise the inner choice is v itself and 1 · (eᵛ − 1) = eᵛ − 1. -/
theorem reference_word (v : EReal) :
    Scalar.select (FloatOps.cmpf (F := Ideal) (φ := .f32) .ogt v (Ideal.ofBits .f32 0x00000000#32)) v
      (Ideal.ofBits .f32 0x3F800000#32 *
        FloatOps.hostUnary (F := Ideal) (φ := .f32) .expm1
          (Scalar.select (FloatOps.cmpf (F := Ideal) (φ := .f32) .ogt v (Ideal.ofBits .f32 0x00000000#32)) (Ideal.ofBits .f32 0x00000000#32) v))
      = Cert.Spec.elu1 v := by
  unfold Cert.Spec.elu1
  rw [Ideal.ofBits_zero_f32, ofBits_one_f32, Ideal.cmpf_def]
  by_cases h : Ideal.cmp .ogt v 0 = 1#1
  · simp only [h, select_one]
  · simp only [eq_zero_of_ne_one h, select_zero, one_mul, Ideal.hostUnary_expm1_def]

/-- The zero offsets of a store or load of a whole buffer. -/
theorem hz : (![0, 0] : Fin 2 → Nat) = fun _ => 0 := funext fun a => by fin_cases a <;> rfl

/-- The exponential of a vector at an index is the exponential of the element. -/
theorem exp_apply {s : Shape} {φ : FTy} (a : FVec Ideal s φ) (i : s.Idx) : exp a i = FloatOps.exp (a i) := rfl

/-- The host's expm1 of an array at an index is expm1 of the element. -/
theorem expm1_apply {s : Shape} {φ : FTy} (a : FVec Ideal s φ) (i : s.Idx) :
    Host.expm1 a i = FloatOps.hostUnary .expm1 (a i) := rfl

end Cert.BiasElu

namespace Cert.KernelIdeal.Hand
open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 1: the first layer's bias and ELU, 10 grid points of 5000 rows each -/

namespace BiasElu1

/-- The stored vector at (p, q) of a block: ELU of the block's entry plus the bias row's entry at q. -/
theorem pay_apply (x0 : Vec Ideal S5000x128 .f32) (x1 : Vec Ideal S1x128 .f32) (p : Fin 5000) (q : Fin 128) :
    k1_pay1 (F := Ideal) x0 x1 (ix2 p q) = Cert.Spec.elu1 (x0 (ix2 p q) + x1 (ix2 (0 : Fin 1) q)) := by
  unfold k1_pay1
  rw [shapeCast_self, shapeCast_self]
  have hb : broadcastTo S5000x128 x1 broadcasts_S1x128_S5000x128 (ix2 p q) = x1 (ix2 (0 : Fin 1) q) :=
    broadcastTo_1b_ab_apply x1 broadcasts_S1x128_S5000x128 p q
  rw [select_apply, cmpf_apply, subf_apply, Cert.BiasElu.exp_apply, addf_apply, hb, broadcast_apply, broadcast_apply]
  exact Cert.BiasElu.kernel_word _

/-- The same at any index of the block. -/
theorem pay_at (x0 : Vec Ideal S5000x128 .f32) (x1 : Vec Ideal S1x128 .f32) (j : S5000x128.Idx) :
    k1_pay1 (F := Ideal) x0 x1 j = Cert.Spec.elu1 (x0 j + x1 (ix2 (0 : Fin 1) (j 1))) := by
  obtain ⟨p, q, rfl⟩ : ∃ (p : Fin 5000) (q : Fin 128), j = ix2 p q := ⟨j 0, j 1, eq_ix2 j⟩
  exact pay_apply x0 x1 p q

/-- The index maps over the grid: at point t the input block and the output block are block (t, 0) of their arrays,
    the bias window is always block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of bias-then-ELU of the whole arrays: the input block's entry under an
    output block's index is the array's entry at the same place, and the bias window is the whole bias row. -/
theorem flushed_eq (c : Dev nD) (t : Fin cfg1.N) :
    (dat1 (F := Ideal) V c).flushed 2 t
      = ((cfg1.win 2).blk t).view.read (Elt Ideal) (Cert.Spec.be (V c main_v44) (V c main_v45)) := by
  show (cfg1.win 2).cut (grid1.coords t) ((dat1 V c).after 2 t) = _
  rw [after1_2]
  unfold out1_2
  rw [View.canon_unit_zero Cert.BiasElu.hz]
  simp only [View.ld_unit_zero (S := S5000x128) Cert.BiasElu.hz, View.ld_unit_zero (S := S1x128) Cert.BiasElu.hz]
  obtain ⟨e0, e1, e2, e3, e4, e5⟩ := idx_facts t
  funext j
  show k1_pay1 (F := Ideal) (iblk1 V c 0 t) (iblk1 V c 1 t) ((cfg1.win 2).xinj (grid1.coords t) j)
    = Cert.Spec.be (V c main_v44) (V c main_v45) (((cfg1.win 2).blk t).view.emb j)
  refine (pay_at _ _ _).trans ?_
  unfold Cert.Spec.be
  have h0 : iblk1 V c 0 t ((cfg1.win 2).xinj (grid1.coords t) j) = V c main_v44 (((cfg1.win 2).blk t).view.emb j) := by
    show V c main_v44 (((cfg1.win 0).blk t).view.emb ((cfg1.win 2).xinj (grid1.coords t) j))
      = V c main_v44 (((cfg1.win 2).blk t).view.emb j)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : iblk1 V c 1 t (ix2 (0 : Fin 1) ((cfg1.win 2).xinj (grid1.coords t) j 1))
      = V c main_v45 (ix2 (0 : Fin 1) (((cfg1.win 2).blk t).view.emb j 1)) := by
    show V c main_v45 (((cfg1.win 1).blk t).view.emb (ix2 (0 : Fin 1) ((cfg1.win 2).xinj (grid1.coords t) j 1))) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  exact congrArg Cert.Spec.elu1 (congrArg₂ (· + ·) h0 h1)

/-- An index of the array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v46).slice (win1_2.rect t)).set ↔ _
  rw [View.set_slice_whole, Rect.mem_set_unit]
  exact Iff.rfl

/-- Every index of the array is in some point's block: row r is in block r / 5000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  have ht : (i 0).val / 5000 < cfg1.N := by show _ < grid1.N; rw [hN]; omega
  refine ⟨⟨(i 0).val / 5000, ht⟩, flush1_2 _, ?_⟩
  rw [mem_blk]
  obtain ⟨-, -, -, -, e4, e5⟩ := idx_facts ⟨(i 0).val / 5000, ht⟩
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e5]; omega

end BiasElu1

/-- Region 1 leaves its output array at bias-then-ELU of its two input arrays as the region finds them. -/
theorem region1_value (c : Dev nD) :
    (dat1 (F := Ideal) V c).arrAt 2 cfg1.N = Cert.Spec.be (V c main_v44) (V c main_v45) :=
  (dat1 (F := Ideal) V c).arrAt_eq_of_cover 2 (Cert.Spec.be (V c main_v44) (V c main_v45))
    (fun t _ => BiasElu1.flushed_eq V c t) BiasElu1.cover

/-! ## Region 3: the second layer's bias and ELU, 10 grid points of 5000 rows each -/

namespace BiasElu3

/-- The stored vector at (p, q) of a block: ELU of the block's entry plus the bias row's entry at q. -/
theorem pay_apply (x0 : Vec Ideal S5000x128 .f32) (x1 : Vec Ideal S1x128 .f32) (p : Fin 5000) (q : Fin 128) :
    k3_pay1 (F := Ideal) x0 x1 (ix2 p q) = Cert.Spec.elu1 (x0 (ix2 p q) + x1 (ix2 (0 : Fin 1) q)) := by
  unfold k3_pay1
  rw [shapeCast_self, shapeCast_self]
  have hb : broadcastTo S5000x128 x1 broadcasts_S1x128_S5000x128 (ix2 p q) = x1 (ix2 (0 : Fin 1) q) :=
    broadcastTo_1b_ab_apply x1 broadcasts_S1x128_S5000x128 p q
  rw [select_apply, cmpf_apply, subf_apply, Cert.BiasElu.exp_apply, addf_apply, hb, broadcast_apply, broadcast_apply]
  exact Cert.BiasElu.kernel_word _

/-- The same at any index of the block. -/
theorem pay_at (x0 : Vec Ideal S5000x128 .f32) (x1 : Vec Ideal S1x128 .f32) (j : S5000x128.Idx) :
    k3_pay1 (F := Ideal) x0 x1 j = Cert.Spec.elu1 (x0 j + x1 (ix2 (0 : Fin 1) (j 1))) := by
  obtain ⟨p, q, rfl⟩ : ∃ (p : Fin 5000) (q : Fin 128), j = ix2 p q := ⟨j 0, j 1, eq_ix2 j⟩
  exact pay_apply x0 x1 p q

/-- The index maps over the grid: at point t the input block and the output block are block (t, 0) of their arrays,
    the bias window is always block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of bias-then-ELU of the whole arrays: the input block's entry under an
    output block's index is the array's entry at the same place, and the bias window is the whole bias row. -/
theorem flushed_eq (c : Dev nD) (t : Fin cfg3.N) :
    (dat3 (F := Ideal) V c).flushed 2 t
      = ((cfg3.win 2).blk t).view.read (Elt Ideal) (Cert.Spec.be (V c main_v84) (V c main_v85)) := by
  show (cfg3.win 2).cut (grid3.coords t) ((dat3 V c).after 2 t) = _
  rw [after3_2]
  unfold out3_2
  rw [View.canon_unit_zero Cert.BiasElu.hz]
  simp only [View.ld_unit_zero (S := S5000x128) Cert.BiasElu.hz, View.ld_unit_zero (S := S1x128) Cert.BiasElu.hz]
  obtain ⟨e0, e1, e2, e3, e4, e5⟩ := idx_facts t
  funext j
  show k3_pay1 (F := Ideal) (iblk3 V c 0 t) (iblk3 V c 1 t) ((cfg3.win 2).xinj (grid3.coords t) j)
    = Cert.Spec.be (V c main_v84) (V c main_v85) (((cfg3.win 2).blk t).view.emb j)
  refine (pay_at _ _ _).trans ?_
  unfold Cert.Spec.be
  have h0 : iblk3 V c 0 t ((cfg3.win 2).xinj (grid3.coords t) j) = V c main_v84 (((cfg3.win 2).blk t).view.emb j) := by
    show V c main_v84 (((cfg3.win 0).blk t).view.emb ((cfg3.win 2).xinj (grid3.coords t) j))
      = V c main_v84 (((cfg3.win 2).blk t).view.emb j)
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : iblk3 V c 1 t (ix2 (0 : Fin 1) ((cfg3.win 2).xinj (grid3.coords t) j 1))
      = V c main_v85 (ix2 (0 : Fin 1) (((cfg3.win 2).blk t).view.emb j 1)) := by
    show V c main_v85 (((cfg3.win 1).blk t).view.emb (ix2 (0 : Fin 1) ((cfg3.win 2).xinj (grid3.coords t) j 1))) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  exact congrArg Cert.Spec.elu1 (congrArg₂ (· + ·) h0 h1)

/-- An index of the array is in point t's block iff each coordinate is in the block's range on its axis. -/
theorem mem_blk (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v86).slice (win3_2.rect t)).set ↔ _
  rw [View.set_slice_whole, Rect.mem_set_unit]
  exact Iff.rfl

/-- Every index of the array is in some point's block: row r is in block r / 5000. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  have ht : (i 0).val / 5000 < cfg3.N := by show _ < grid3.N; rw [hN]; omega
  refine ⟨⟨(i 0).val / 5000, ht⟩, flush3_2 _, ?_⟩
  rw [mem_blk]
  obtain ⟨-, -, -, -, e4, e5⟩ := idx_facts ⟨(i 0).val / 5000, ht⟩
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    rw [e5]; omega

end BiasElu3

/-- Region 3 leaves its output array at bias-then-ELU of its two input arrays as the region finds them. -/
theorem region3_value (c : Dev nD) :
    (dat3 (F := Ideal) V c).arrAt 2 cfg3.N = Cert.Spec.be (V c main_v84) (V c main_v85) :=
  (dat3 (F := Ideal) V c).arrAt_eq_of_cover 2 (Cert.Spec.be (V c main_v84) (V c main_v85))
    (fun t _ => BiasElu3.flushed_eq V c t) BiasElu3.cover

end Cert.KernelIdeal.Hand

namespace Cert.ReferenceIdeal.Hand
open Cert.ReferenceIdeal Cert.ReferenceIdeal.Gen Idealize.ShloMosaic Idealize.ShloMosaic.TcCoe Idealize.SL.Sem
open Idealize.ShloMosaic.ValueIdx

namespace BiasElu

/-- The reference's bias-then-ELU stage as one pure term of the layer's aggregate a and its bias vector b. -/
def stage (a : FVec Ideal S50000x128 .f32) (b : FVec Ideal S128 .f32) : FVec Ideal S50000x128 .f32 :=
  select
    (cmpf .ogt
      (addf a (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32)))
    (addf a (broadcastInDim S50000x128 ![0, 1] bcast_S1x128_S50000x128_0_1 (broadcastInDim S1x128 ![1] bcast_S128_S1x128_1 b)))
    (mulf
      (broadcastInDim S50000x128 ![] bcast_S_S50000x128 (constant (F := Ideal) S_ .f32 0x3F800000#32))
      (Host.expm1
        (select
          (cmpf .ogt
            (addf a (broadcastInDim S50000x128 ![0, 1] bcast_S1x128_S50000x128_0_1 (broadcastInDim S1x128 ![1] bcast_S128_S1x128_1 b)))
            (broadcastInDim S50000x128 ![] bcast_S_S50000x128 (constant (F := Ideal) S_ .f32 0x00000000#32)))
          (broadcastInDim S50000x128 ![] bcast_S_S50000x128 (id (constant (F := Ideal) S_ .f32 0x00000000#32)))
          (addf a (broadcastInDim S50000x128 ![0, 1] bcast_S1x128_S50000x128_0_1 (broadcastInDim S1x128 ![1] bcast_S128_S1x128_1 b))))))

theorem rops2_eq (W : Valuation τ sig (Elt Ideal)) :
    StableHlo.after (rops2 (F := Ideal)) W (Proc.devRef .tc main_v48)
      = stage (W (Proc.devRef .tc main_v44)) (W (Proc.devRef .tc main_arg3)) := by
  after_results
  rfl

theorem rops5_eq (W : Valuation τ sig (Elt Ideal)) :
    StableHlo.after (rops5 (F := Ideal)) W (Proc.devRef .tc main_v90)
      = stage (W (Proc.devRef .tc main_v86)) (W (Proc.devRef .tc main_arg5)) := by
  after_results
  rfl

end BiasElu

namespace BiasElu

/-- The bias row broadcast over the 50000 rows reads, at (r, q), the row at q. -/
theorem bcast_row (x : FVec Ideal S1x128 .f32) (r : Fin 50000) (q : Fin 128) :
    broadcastInDim S50000x128 ![0, 1] bcast_S1x128_S50000x128_0_1 x (ix2 r q) = x (ix2 (0 : Fin 1) q) := by
  refine broadcastInDim_apply _ _ x (ix2 r q) (ix2 (0 : Fin 1) q) fun a => ?_
  match a with
  | ⟨0, _⟩ => rfl
  | ⟨1, _⟩ => show q.val = if (128 : ℕ) = 1 then 0 else q.val; rw [if_neg (by decide)]

/-- A scalar broadcast over the array reads the scalar everywhere. -/
theorem bcast_scalar (x : FVec Ideal S_ .f32) (i : S50000x128.Idx) :
    broadcastInDim S50000x128 ![] bcast_S_S50000x128 x i = x ix0 :=
  broadcastInDim_apply _ _ x i ix0 fun a => a.elim0

/-- The reference's stage is bias-then-ELU of the aggregate and the bias as a one-row matrix. -/
theorem stage_eq (a : FVec Ideal S50000x128 .f32) (b : FVec Ideal S128 .f32) :
    stage a b = Cert.Spec.be a (broadcastInDim S1x128 ![1] bcast_S128_S1x128_1 b) := by
  funext i
  obtain ⟨r, q, rfl⟩ : ∃ (r : Fin 50000) (q : Fin 128), i = ix2 r q := ⟨i 0, i 1, eq_ix2 i⟩
  unfold stage Cert.Spec.be
  simp only [select_apply, cmpf_apply, mulf_apply, Cert.BiasElu.expm1_apply, addf_apply]
  rw [bcast_row, bcast_scalar, bcast_scalar, bcast_scalar]
  exact Cert.BiasElu.reference_word _

end BiasElu

theorem rops2_value (W : Valuation τ sig (Elt Ideal)) :
    StableHlo.after (rops2 (F := Ideal)) W (Proc.devRef .tc main_v48)
      = Cert.Spec.be (W (Proc.devRef .tc main_v44)) (broadcastInDim S1x128 ![1] bcast_S128_S1x128_1 (W (Proc.devRef .tc main_arg3))) :=
  (BiasElu.rops2_eq W).trans (BiasElu.stage_eq _ _)

theorem rops5_value (W : Valuation τ sig (Elt Ideal)) :
    StableHlo.after (rops5 (F := Ideal)) W (Proc.devRef .tc main_v90)
      = Cert.Spec.be (W (Proc.devRef .tc main_v86)) (broadcastInDim S1x128 ![1] bcast_S128_S1x128_1 (W (Proc.devRef .tc main_arg5))) :=
  (BiasElu.rops5_eq W).trans (BiasElu.stage_eq _ _)

end Cert.ReferenceIdeal.Hand

end
-- ==== Proof.RefRun.lean ====
import proofs.«168945_j53094385713941_1_alg».proof.Proof.RefOps
import Idealize.ShloMosaic.Lib.Pipeline.Regions
import Idealize.ShloMosaic.Lib.Pipeline.Frame

/-! # The reference program's run

The reference's @main is a straight line of 141 host operations once each call of a module-local function is read as
the callee's operations over that call's buffers. This module proves that reading (`main_eq`: @main is `seq` of the six
operation lists in order) and the run it gives (`run`: every weakly fair execution terminates, each buffer at the fold
of the operations' results over its launch contents, stated list by list).

The reading is an equation between two programs that differ only in how their sequencing is bracketed: @main is two
windows, each a right-nested sequence of statements in which a call stands for a whole sub-sequence, while `seq` of a
list is right-nested throughout. Each window is cut into stretches at the boundaries of its calls — the statements
before a call, the callee's, the statements after — so that a window is the chain of `seq` of its stretches by unfolding
alone; a chain of `seq`s is `seq` of the concatenation (associativity of sequencing), and the stretches, being
consecutive segments of one list, concatenate to it. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Consecutive stretches of a list -/

/-- A list cut into consecutive stretches of the given lengths, what remains being the last stretch. -/
def cuts {α : Type} : List Nat → List α → List (List α)
  | [], l => [l]
  | n :: ns, l => l.take n :: cuts ns (l.drop n)

/-- The stretches, concatenated, are the list. -/
theorem flatten_cuts {α : Type} : ∀ (ns : List Nat) (l : List α), (cuts ns l).flatten = l
  | [], l => by rw [cuts, List.flatten_cons, List.flatten_nil, List.append_nil]
  | n :: ns, l => by rw [cuts, List.flatten_cons, flatten_cuts ns, List.take_append_drop]

section Chain

variable {nD : Nat} {τ : Topo} {sig : RefSig} {Val : EltTy → Type} {Λ : Labels}

/-- Lines run one after the other are their concatenation run as one line. -/
theorem chain_map_seq : ∀ ls : List (List (HloOp τ sig Val)),
    (Pipeline.chain (ls.map seq) : Prog (TpuEff nD τ sig Val Λ .tc) PUnit) = seq ls.flatten
  | [] => rfl
  | l :: ls => by
    rw [List.map_cons, Pipeline.chain_cons, chain_map_seq ls, List.flatten_cons, seq_append]

end Chain

/-! ## @main as one line

Window 0 (statements 1 … 60) is the first 74 operations: 20 of @main's own (the index vectors, the first product, the
degree count up to the operands of the guarded reciprocal square root), the one operation of `_where`, 38 more of @main's
(the normalisation, gather, scaling, scatter-add and the bias), then `elu`'s 15 as 7 of its own, `_where_0`'s 3, 4 of its
own and `_where_1`'s 1. Window 1 (the statements from 61 on) is the other 67, cut the same way after the second layer's
product: 13, 1, 38, 7, 3, 4, 1. -/

set_option maxRecDepth 16384 in
/-- Window 0 is the chain of its stretches: the two sides unfold to the same sequence of operations. -/
theorem part0_chain (c : Dev nD) : main_part0 (F := F) c
    = Pipeline.chain ((cuts [20, 1, 38, 7, 3, 4] (rops0 ++ rops1 ++ rops2 : List (HloOp τ sig (Elt F)))).map seq) := by
  chain_rfl

set_option maxRecDepth 16384 in
/-- Window 1 is the chain of its stretches; its own closing return follows `elu`'s. -/
theorem part1_chain (c : Dev nD) : main_part1 (F := F) c
    = Pipeline.chain ((cuts [13, 1, 38, 7, 3, 4] (rops3 ++ rops4 ++ rops5 : List (HloOp τ sig (Elt F)))).map seq) := by
  chain_rfl

/-- Window 0 is the first three lists run as one line. -/
theorem part0_eq (c : Dev nD) : main_part0 (F := F) c = seq (rops0 ++ rops1 ++ rops2) := by
  rw [part0_chain, chain_map_seq, flatten_cuts]

/-- Window 1 is the last three lists run as one line. -/
theorem part1_eq (c : Dev nD) : main_part1 (F := F) c = seq (rops3 ++ rops4 ++ rops5) := by
  rw [part1_chain, chain_map_seq, flatten_cuts]

/-- @main is its 141 operations run in order. -/
theorem main_eq (c : Dev nD) : main (F := F) c = seq (rops0 ++ rops1 ++ rops2 ++ rops3 ++ rops4 ++ rops5) := by
  show (main_part0 (F := F) c >>= fun _ => main_part1 (F := F) c) = _
  rw [part0_eq, part1_eq, ← seq_append]
  simp only [List.append_assoc]

/-! ## The side conditions of the run -/

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Each conjunct of a list's side condition is its builder's: whatever the builder, the operation touches the
    references it was built over, and those are TensorCore references. The builder is read off the operation as
    written (a typed-reference builder abbreviates the plain one of its arity). -/
local macro "bufs_sub_each" : tactic =>
  `(tactic| (simp only [List.Forall]
             repeat' apply And.intro
             all_goals first
               | with_reducible exact nullary_bufs_sub ..
               | with_reducible exact unary_bufs_sub ..
               | with_reducible exact binary_bufs_sub ..
               | with_reducible exact ternary_bufs_sub ..
               | with_reducible exact reshape_bufs_sub ..))

theorem rops0_sub : (rops0 : List (HloOp τ sig (Elt F))).Forall fun op => op.bufs ⊆ tcRefs τ sig := by bufs_sub_each
theorem rops1_sub : (rops1 : List (HloOp τ sig (Elt F))).Forall fun op => op.bufs ⊆ tcRefs τ sig := by bufs_sub_each
theorem rops2_sub : (rops2 : List (HloOp τ sig (Elt F))).Forall fun op => op.bufs ⊆ tcRefs τ sig := by bufs_sub_each
theorem rops3_sub : (rops3 : List (HloOp τ sig (Elt F))).Forall fun op => op.bufs ⊆ tcRefs τ sig := by bufs_sub_each
theorem rops4_sub : (rops4 : List (HloOp τ sig (Elt F))).Forall fun op => op.bufs ⊆ tcRefs τ sig := by bufs_sub_each
theorem rops5_sub : (rops5 : List (HloOp τ sig (Elt F))).Forall fun op => op.bufs ⊆ tcRefs τ sig := by bufs_sub_each

/-- Every operation of the line touches TensorCore references only. -/
theorem rops_sub : (rops0 ++ rops1 ++ rops2 ++ rops3 ++ rops4 ++ rops5 : List (HloOp τ sig (Elt F))).Forall
    fun op => op.bufs ⊆ tcRefs τ sig :=
  List.forall_append.mpr ⟨List.forall_append.mpr ⟨List.forall_append.mpr ⟨List.forall_append.mpr
    ⟨List.forall_append.mpr ⟨rops0_sub, rops1_sub⟩, rops2_sub⟩, rops3_sub⟩, rops4_sub⟩, rops5_sub⟩

theorem rops0_fresh : (rops0 : List (HloOp τ sig (Elt F))).Forall fun op => op.fresh = ∅ := by
  simp only [List.Forall]; repeat' constructor
theorem rops1_fresh : (rops1 : List (HloOp τ sig (Elt F))).Forall fun op => op.fresh = ∅ := by
  simp only [List.Forall]; repeat' constructor
theorem rops2_fresh : (rops2 : List (HloOp τ sig (Elt F))).Forall fun op => op.fresh = ∅ := by
  simp only [List.Forall]; repeat' constructor
theorem rops3_fresh : (rops3 : List (HloOp τ sig (Elt F))).Forall fun op => op.fresh = ∅ := by
  simp only [List.Forall]; repeat' constructor
theorem rops4_fresh : (rops4 : List (HloOp τ sig (Elt F))).Forall fun op => op.fresh = ∅ := by
  simp only [List.Forall]; repeat' constructor
theorem rops5_fresh : (rops5 : List (HloOp τ sig (Elt F))).Forall fun op => op.fresh = ∅ := by
  simp only [List.Forall]; repeat' constructor

/-- No operation of the line allocates a buffer: each determines its results. -/
theorem rops_fresh : (rops0 ++ rops1 ++ rops2 ++ rops3 ++ rops4 ++ rops5 : List (HloOp τ sig (Elt F))).Forall
    fun op => op.fresh = ∅ :=
  List.forall_append.mpr ⟨List.forall_append.mpr ⟨List.forall_append.mpr ⟨List.forall_append.mpr
    ⟨List.forall_append.mpr ⟨rops0_fresh, rops1_fresh⟩, rops2_fresh⟩, rops3_fresh⟩, rops4_fresh⟩, rops5_fresh⟩

/-! ## The run -/

/-- On every device, for any float values, from any memory with zero counters: every weakly fair execution of @main
    terminates, and each TensorCore buffer ends at the six lists' results folded, in order, over the launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after rops5 (after rops4 (after rops3 (after rops2 (after rops1 (after rops0 (launchContents m d)))))) (Proc.devRef .tc b) :=
  (θ_run defs _ _).mono (fun _ h d b => (h d b).trans (by simp only [after_append]))
    (run_seq scopedRefs_eq scopedSems_eq defs main (fun _ => rops0 ++ rops1 ++ rops2 ++ rops3 ++ rops4 ++ rops5)
      main_eq (fun _ => rops_sub) m ρ (fun _ => List.forall_iff_forall_mem.mp rops_fresh))

end Cert.ReferenceIdeal.Hand

end
-- ==== Proof.Value.lean ====
/-
  The two programs' results are one array.
  Both programs are two layers of: transform the node features by a 128×128 matrix, gather and scale the transformed rows
  along the edges, scatter-add them by target node, add a bias row, apply ELU. The kernel does the matrix product and the
  bias + ELU in four pipelined kernels over ten row blocks each; the reference does them as whole-array host operations.
  Here the kernel's buffer contents at each boundary between a host stretch and a kernel region are compared with the
  reference's contents after the corresponding operations: the index vectors agree, then the first product, the first
  scatter-add, the first ELU, the second product, the second scatter-add, and at last the result.
-/
import proofs.«168945_j53094385713941_1_alg».proof.Proof.KRun
import proofs.«168945_j53094385713941_1_alg».proof.Proof.Stretch
import proofs.«168945_j53094385713941_1_alg».proof.Proof.MatmulValue
import proofs.«168945_j53094385713941_1_alg».proof.Proof.BiasEluValue
import proofs.«168945_j53094385713941_1_alg».proof.Proof.RefRun
import Idealize.ShloMosaic.Lib.Pipeline.Value

set_option maxRecDepth 16384

noncomputable section

namespace Cert.Hand

open Idealize.ShloMosaic Idealize.ShloMosaic.TcCoe Idealize.SL.Sem Idealize.ShloMosaic.StableHlo

/-- A bias vector laid out as one row by a reshape is the same row as the one a broadcast along the second axis lays
    out: entry (0, j) of either is entry j of the vector. -/
theorem bias_row {α : Type} (b : Cert.KernelIdeal.S128.Idx → α) (h : Cert.KernelIdeal.S128.ShapeCasts Cert.KernelIdeal.S1x128)
    (h' : Cert.KernelIdeal.S128.BroadcastsInDim Cert.KernelIdeal.S1x128 (![1] : Fin 1 → Fin 2)) :
    shapeCast Cert.KernelIdeal.S1x128 b h = broadcastInDim Cert.KernelIdeal.S1x128 ![1] h' b := by
  funext j
  rw [shapeCast_addUnit_apply (n := 1) ![128] b h j]
  refine (broadcastInDim_apply (![1] : Fin 1 → Fin 2) h' b j (fun a => j a.succ) (fun a => ?_)).symm
  match a with
  | ⟨0, _⟩ => rfl

section

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The reference's buffer contents at launch, and after each of its six stretches. -/
abbrev R0 : Valuation Cert.ReferenceIdeal.τ Cert.ReferenceIdeal.sig (Elt Ideal) := launchContents m' c
abbrev R1 : Valuation Cert.ReferenceIdeal.τ Cert.ReferenceIdeal.sig (Elt Ideal) := after Cert.ReferenceIdeal.Hand.rops0 (R0 m' c)
abbrev R2 : Valuation Cert.ReferenceIdeal.τ Cert.ReferenceIdeal.sig (Elt Ideal) := after Cert.ReferenceIdeal.Hand.rops1 (R1 m' c)
abbrev R3 : Valuation Cert.ReferenceIdeal.τ Cert.ReferenceIdeal.sig (Elt Ideal) := after Cert.ReferenceIdeal.Hand.rops2 (R2 m' c)
abbrev R4 : Valuation Cert.ReferenceIdeal.τ Cert.ReferenceIdeal.sig (Elt Ideal) := after Cert.ReferenceIdeal.Hand.rops3 (R3 m' c)
abbrev R5 : Valuation Cert.ReferenceIdeal.τ Cert.ReferenceIdeal.sig (Elt Ideal) := after Cert.ReferenceIdeal.Hand.rops4 (R4 m' c)
abbrev R6 : Valuation Cert.ReferenceIdeal.τ Cert.ReferenceIdeal.sig (Elt Ideal) := after Cert.ReferenceIdeal.Hand.rops5 (R5 m' c)

variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))

/-! ## The index vectors, and the arguments as the first region finds them -/

include h1 in
theorem src1 : Cert.KernelIdeal.Gen.W1 m ρ c (Proc.devRef .tc Cert.KernelIdeal.main_v3) = R1 m' c (Proc.devRef .tc Cert.ReferenceIdeal.main_v3) :=
  src_eq (Cert.KernelIdeal.Gen.W0 m ρ c) (R0 m' c) h1.symm
include h1 in
theorem dst1 : Cert.KernelIdeal.Gen.W1 m ρ c (Proc.devRef .tc Cert.KernelIdeal.main_v6) = R1 m' c (Proc.devRef .tc Cert.ReferenceIdeal.main_v6) :=
  dst_eq (Cert.KernelIdeal.Gen.W0 m ρ c) (R0 m' c) h1.symm

theorem W1_main_arg0 : Cert.KernelIdeal.Gen.W1 m ρ c (Proc.devRef .tc Cert.KernelIdeal.main_arg0) = m ((c.tc : Thread Cert.KernelIdeal.nD Cert.KernelIdeal.τ).loc Cert.KernelIdeal.main_arg0) := k0_kept_main_arg0 (Cert.KernelIdeal.Gen.W0 m ρ c)
theorem W1_main_arg2 : Cert.KernelIdeal.Gen.W1 m ρ c (Proc.devRef .tc Cert.KernelIdeal.main_arg2) = m ((c.tc : Thread Cert.KernelIdeal.nD Cert.KernelIdeal.τ).loc Cert.KernelIdeal.main_arg2) := k0_kept_main_arg2 (Cert.KernelIdeal.Gen.W0 m ρ c)
theorem W1_main_arg3 : Cert.KernelIdeal.Gen.W1 m ρ c (Proc.devRef .tc Cert.KernelIdeal.main_arg3) = m ((c.tc : Thread Cert.KernelIdeal.nD Cert.KernelIdeal.τ).loc Cert.KernelIdeal.main_arg3) := k0_kept_main_arg3 (Cert.KernelIdeal.Gen.W0 m ρ c)
theorem W1_main_arg4 : Cert.KernelIdeal.Gen.W1 m ρ c (Proc.devRef .tc Cert.KernelIdeal.main_arg4) = m ((c.tc : Thread Cert.KernelIdeal.nD Cert.KernelIdeal.τ).loc Cert.KernelIdeal.main_arg4) := k0_kept_main_arg4 (Cert.KernelIdeal.Gen.W0 m ρ c)
theorem W1_main_arg5 : Cert.KernelIdeal.Gen.W1 m ρ c (Proc.devRef .tc Cert.KernelIdeal.main_arg5) = m ((c.tc : Thread Cert.KernelIdeal.nD Cert.KernelIdeal.τ).loc Cert.KernelIdeal.main_arg5) := k0_kept_main_arg5 (Cert.KernelIdeal.Gen.W0 m ρ c)

/-! ## After the first product -/

include h0 h2 in
theorem prod1 : Cert.KernelIdeal.Gen.W2 m ρ c (Proc.devRef .tc Cert.KernelIdeal.main_v7) = R1 m' c (Proc.devRef .tc Cert.ReferenceIdeal.main_v7) := by
  refine (Cert.KernelIdeal.Gen.W2_arr m ρ c 2).trans ((Cert.KernelIdeal.Hand.region0_value (Cert.KernelIdeal.Gen.V1 m ρ) c).trans ?_)
  refine Eq.trans ?_ ((r0_dot (R0 m' c)).trans (Cert.ReferenceIdeal.Hand.dot_eq_mm _ _)).symm
  show Cert.Spec.mm (Cert.KernelIdeal.Gen.W1 m ρ c (Proc.devRef .tc Cert.KernelIdeal.main_arg0)) (Cert.KernelIdeal.Gen.W1 m ρ c (Proc.devRef .tc Cert.KernelIdeal.main_arg2)) = Cert.Spec.mm (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))
  rw [W1_main_arg0, W1_main_arg2, h0, h2]

include h1 in
theorem src2 : Cert.KernelIdeal.Gen.W2 m ρ c (Proc.devRef .tc Cert.KernelIdeal.main_v3) = R1 m' c (Proc.devRef .tc Cert.ReferenceIdeal.main_v3) :=
  (Cert.KernelIdeal.Gen.W2_of_ne m ρ c Cert.KernelIdeal.main_v3 (by decide)).trans (src1 m ρ m' c h1)
include h1 in
theorem dst2 : Cert.KernelIdeal.Gen.W2 m ρ c (Proc.devRef .tc Cert.KernelIdeal.main_v6) = R1 m' c (Proc.devRef .tc Cert.ReferenceIdeal.main_v6) :=
  (Cert.KernelIdeal.Gen.W2_of_ne m ρ c Cert.KernelIdeal.main_v6 (by decide)).trans (dst1 m ρ m' c h1)
theorem W2_main_arg3 : Cert.KernelIdeal.Gen.W2 m ρ c (Proc.devRef .tc Cert.KernelIdeal.main_arg3) = m ((c.tc : Thread Cert.KernelIdeal.nD Cert.KernelIdeal.τ).loc Cert.KernelIdeal.main_arg3) :=
  (Cert.KernelIdeal.Gen.W2_of_ne m ρ c Cert.KernelIdeal.main_arg3 (by decide)).trans (W1_main_arg3 m ρ c)
theorem W2_main_arg4 : Cert.KernelIdeal.Gen.W2 m ρ c (Proc.devRef .tc Cert.KernelIdeal.main_arg4) = m ((c.tc : Thread Cert.KernelIdeal.nD Cert.KernelIdeal.τ).loc Cert.KernelIdeal.main_arg4) :=
  (Cert.KernelIdeal.Gen.W2_of_ne m ρ c Cert.KernelIdeal.main_arg4 (by decide)).trans (W1_main_arg4 m ρ c)
theorem W2_main_arg5 : Cert.KernelIdeal.Gen.W2 m ρ c (Proc.devRef .tc Cert.KernelIdeal.main_arg5) = m ((c.tc : Thread Cert.KernelIdeal.nD Cert.KernelIdeal.τ).loc Cert.KernelIdeal.main_arg5) :=
  (Cert.KernelIdeal.Gen.W2_of_ne m ρ c Cert.KernelIdeal.main_arg5 (by decide)).trans (W1_main_arg5 m ρ c)

/-! ## After the first scatter-add -/

include h0 h1 h2 in
theorem agg1 : Cert.KernelIdeal.Gen.W5 m ρ c (Proc.devRef .tc Cert.KernelIdeal.main_v44) = R2 m' c (Proc.devRef .tc Cert.ReferenceIdeal.main_v44) :=
  mid1_eq (Cert.KernelIdeal.Gen.W2 m ρ c) (R1 m' c) (src2 m ρ m' c h1) (dst2 m ρ m' c h1) (prod1 m ρ m' c h0 h2)

theorem row1 : Cert.KernelIdeal.Gen.W5 m ρ c (Proc.devRef .tc Cert.KernelIdeal.main_v45) = shapeCast Cert.KernelIdeal.S1x128 (m ((c.tc : Thread Cert.KernelIdeal.nD Cert.KernelIdeal.τ).loc Cert.KernelIdeal.main_arg3)) Cert.KernelIdeal.Gen.shapeCasts_S128_S1x128 :=
  (k1_bias (Cert.KernelIdeal.Gen.W2 m ρ c)).trans (by rw [W2_main_arg3])

include h1 in
theorem src5 : Cert.KernelIdeal.Gen.W5 m ρ c (Proc.devRef .tc Cert.KernelIdeal.main_v3) = R2 m' c (Proc.devRef .tc Cert.ReferenceIdeal.main_v3) :=
  (k1_kept_main_v3 (Cert.KernelIdeal.Gen.W2 m ρ c)).trans ((src2 m ρ m' c h1).trans (r1_kept_main_v3 (R1 m' c)).symm)
include h1 in
theorem dst5 : Cert.KernelIdeal.Gen.W5 m ρ c (Proc.devRef .tc Cert.KernelIdeal.main_v6) = R2 m' c (Proc.devRef .tc Cert.ReferenceIdeal.main_v6) :=
  (k1_kept_main_v6 (Cert.KernelIdeal.Gen.W2 m ρ c)).trans ((dst2 m ρ m' c h1).trans (r1_kept_main_v6 (R1 m' c)).symm)
theorem W5_main_arg4 : Cert.KernelIdeal.Gen.W5 m ρ c (Proc.devRef .tc Cert.KernelIdeal.main_arg4) = m ((c.tc : Thread Cert.KernelIdeal.nD Cert.KernelIdeal.τ).loc Cert.KernelIdeal.main_arg4) :=
  (k1_kept_main_arg4 (Cert.KernelIdeal.Gen.W2 m ρ c)).trans (W2_main_arg4 m ρ c)
theorem W5_main_arg5 : Cert.KernelIdeal.Gen.W5 m ρ c (Proc.devRef .tc Cert.KernelIdeal.main_arg5) = m ((c.tc : Thread Cert.KernelIdeal.nD Cert.KernelIdeal.τ).loc Cert.KernelIdeal.main_arg5) :=
  (k1_kept_main_arg5 (Cert.KernelIdeal.Gen.W2 m ρ c)).trans (W2_main_arg5 m ρ c)
theorem R2_main_arg3 : R2 m' c (Proc.devRef .tc Cert.ReferenceIdeal.main_arg3) = m' ((c.tc : Thread Cert.ReferenceIdeal.nD Cert.ReferenceIdeal.τ).loc Cert.ReferenceIdeal.main_arg3) :=
  (r1_kept_main_arg3 (R1 m' c)).trans (r0_kept_main_arg3 (R0 m' c))
theorem R2_main_arg4 : R2 m' c (Proc.devRef .tc Cert.ReferenceIdeal.main_arg4) = m' ((c.tc : Thread Cert.ReferenceIdeal.nD Cert.ReferenceIdeal.τ).loc Cert.ReferenceIdeal.main_arg4) :=
  (r1_kept_main_arg4 (R1 m' c)).trans (r0_kept_main_arg4 (R0 m' c))
theorem R2_main_arg5 : R2 m' c (Proc.devRef .tc Cert.ReferenceIdeal.main_arg5) = m' ((c.tc : Thread Cert.ReferenceIdeal.nD Cert.ReferenceIdeal.τ).loc Cert.ReferenceIdeal.main_arg5) :=
  (r1_kept_main_arg5 (R1 m' c)).trans (r0_kept_main_arg5 (R0 m' c))

/-! ## After the first bias and ELU -/

include h0 h1 h2 h3 in
theorem act1 : Cert.KernelIdeal.Gen.W6 m ρ c (Proc.devRef .tc Cert.KernelIdeal.main_v46) = R3 m' c (Proc.devRef .tc Cert.ReferenceIdeal.main_v48) := by
  refine (Cert.KernelIdeal.Gen.W6_arr m ρ c 2).trans ((Cert.KernelIdeal.Hand.region1_value (Cert.KernelIdeal.Gen.V5 m ρ) c).trans ?_)
  refine Eq.trans ?_ (Cert.ReferenceIdeal.Hand.rops2_value (R2 m' c)).symm
  show Cert.Spec.be (Cert.KernelIdeal.Gen.W5 m ρ c (Proc.devRef .tc Cert.KernelIdeal.main_v44)) (Cert.KernelIdeal.Gen.W5 m ρ c (Proc.devRef .tc Cert.KernelIdeal.main_v45)) = _
  rw [agg1 m ρ m' c h0 h1 h2, row1, R2_main_arg3, h3]
  exact congrArg _ (bias_row _ _ _)

include h1 in
theorem src6 : Cert.KernelIdeal.Gen.W6 m ρ c (Proc.devRef .tc Cert.KernelIdeal.main_v3) = R3 m' c (Proc.devRef .tc Cert.ReferenceIdeal.main_v3) :=
  (Cert.KernelIdeal.Gen.W6_of_ne m ρ c Cert.KernelIdeal.main_v3 (by decide)).trans ((src5 m ρ m' c h1).trans (r2_kept_main_v3 (R2 m' c)).symm)
include h1 in
theorem dst6 : Cert.KernelIdeal.Gen.W6 m ρ c (Proc.devRef .tc Cert.KernelIdeal.main_v6) = R3 m' c (Proc.devRef .tc Cert.ReferenceIdeal.main_v6) :=
  (Cert.KernelIdeal.Gen.W6_of_ne m ρ c Cert.KernelIdeal.main_v6 (by decide)).trans ((dst5 m ρ m' c h1).trans (r2_kept_main_v6 (R2 m' c)).symm)
theorem W6_main_arg4 : Cert.KernelIdeal.Gen.W6 m ρ c (Proc.devRef .tc Cert.KernelIdeal.main_arg4) = m ((c.tc : Thread Cert.KernelIdeal.nD Cert.KernelIdeal.τ).loc Cert.KernelIdeal.main_arg4) :=
  (Cert.KernelIdeal.Gen.W6_of_ne m ρ c Cert.KernelIdeal.main_arg4 (by decide)).trans (W5_main_arg4 m ρ c)
theorem W6_main_arg5 : Cert.KernelIdeal.Gen.W6 m ρ c (Proc.devRef .tc Cert.KernelIdeal.main_arg5) = m ((c.tc : Thread Cert.KernelIdeal.nD Cert.KernelIdeal.τ).loc Cert.KernelIdeal.main_arg5) :=
  (Cert.KernelIdeal.Gen.W6_of_ne m ρ c Cert.KernelIdeal.main_arg5 (by decide)).trans (W5_main_arg5 m ρ c)
theorem R3_main_arg4 : R3 m' c (Proc.devRef .tc Cert.ReferenceIdeal.main_arg4) = m' ((c.tc : Thread Cert.ReferenceIdeal.nD Cert.ReferenceIdeal.τ).loc Cert.ReferenceIdeal.main_arg4) :=
  (r2_kept_main_arg4 (R2 m' c)).trans (R2_main_arg4 m' c)
theorem R3_main_arg5 : R3 m' c (Proc.devRef .tc Cert.ReferenceIdeal.main_arg5) = m' ((c.tc : Thread Cert.ReferenceIdeal.nD Cert.ReferenceIdeal.τ).loc Cert.ReferenceIdeal.main_arg5) :=
  (r2_kept_main_arg5 (R2 m' c)).trans (R2_main_arg5 m' c)

/-! ## After the second product -/

include h0 h1 h2 h3 h4 in
theorem prod2 : Cert.KernelIdeal.Gen.W7 m ρ c (Proc.devRef .tc Cert.KernelIdeal.main_v47) = R4 m' c (Proc.devRef .tc Cert.ReferenceIdeal.main_v49) := by
  refine (Cert.KernelIdeal.Gen.W7_arr m ρ c 2).trans ((Cert.KernelIdeal.Hand.region2_value (Cert.KernelIdeal.Gen.V6 m ρ) c).trans ?_)
  refine Eq.trans ?_ ((r3_dot (R3 m' c)).trans (Cert.ReferenceIdeal.Hand.dot_eq_mm _ _)).symm
  show Cert.Spec.mm (Cert.KernelIdeal.Gen.W6 m ρ c (Proc.devRef .tc Cert.KernelIdeal.main_v46)) (Cert.KernelIdeal.Gen.W6 m ρ c (Proc.devRef .tc Cert.KernelIdeal.main_arg4)) = Cert.Spec.mm (R3 m' c (Proc.devRef .tc Cert.ReferenceIdeal.main_v48)) (R3 m' c (Proc.devRef .tc Cert.ReferenceIdeal.main_arg4))
  rw [act1 m ρ m' c h0 h1 h2 h3, W6_main_arg4, R3_main_arg4, h4]

include h1 in
theorem src7 : Cert.KernelIdeal.Gen.W7 m ρ c (Proc.devRef .tc Cert.KernelIdeal.main_v3) = R4 m' c (Proc.devRef .tc Cert.ReferenceIdeal.main_v3) :=
  (Cert.KernelIdeal.Gen.W7_of_ne m ρ c Cert.KernelIdeal.main_v3 (by decide)).trans ((src6 m ρ m' c h1).trans (r3_kept_main_v3 (R3 m' c)).symm)
include h1 in
theorem dst7 : Cert.KernelIdeal.Gen.W7 m ρ c (Proc.devRef .tc Cert.KernelIdeal.main_v6) = R4 m' c (Proc.devRef .tc Cert.ReferenceIdeal.main_v6) :=
  (Cert.KernelIdeal.Gen.W7_of_ne m ρ c Cert.KernelIdeal.main_v6 (by decide)).trans ((dst6 m ρ m' c h1).trans (r3_kept_main_v6 (R3 m' c)).symm)
theorem W7_main_arg5 : Cert.KernelIdeal.Gen.W7 m ρ c (Proc.devRef .tc Cert.KernelIdeal.main_arg5) = m ((c.tc : Thread Cert.KernelIdeal.nD Cert.KernelIdeal.τ).loc Cert.KernelIdeal.main_arg5) :=
  (Cert.KernelIdeal.Gen.W7_of_ne m ρ c Cert.KernelIdeal.main_arg5 (by decide)).trans (W6_main_arg5 m ρ c)
theorem R5_main_arg5 : R5 m' c (Proc.devRef .tc Cert.ReferenceIdeal.main_arg5) = m' ((c.tc : Thread Cert.ReferenceIdeal.nD Cert.ReferenceIdeal.τ).loc Cert.ReferenceIdeal.main_arg5) :=
  (r4_kept_main_arg5 (R4 m' c)).trans ((r3_kept_main_arg5 (R3 m' c)).trans (R3_main_arg5 m' c))

/-! ## After the second scatter-add, and the result -/

include h0 h1 h2 h3 h4 in
theorem agg2 : Cert.KernelIdeal.Gen.W10 m ρ c (Proc.devRef .tc Cert.KernelIdeal.main_v84) = R5 m' c (Proc.devRef .tc Cert.ReferenceIdeal.main_v86) :=
  mid2_eq (Cert.KernelIdeal.Gen.W7 m ρ c) (R4 m' c) (src7 m ρ m' c h1) (dst7 m ρ m' c h1) (prod2 m ρ m' c h0 h1 h2 h3 h4)

theorem row2 : Cert.KernelIdeal.Gen.W10 m ρ c (Proc.devRef .tc Cert.KernelIdeal.main_v85) = shapeCast Cert.KernelIdeal.S1x128 (m ((c.tc : Thread Cert.KernelIdeal.nD Cert.KernelIdeal.τ).loc Cert.KernelIdeal.main_arg5)) Cert.KernelIdeal.Gen.shapeCasts_S128_S1x128 :=
  (k3_bias (Cert.KernelIdeal.Gen.W7 m ρ c)).trans (by rw [W7_main_arg5])

include h0 h1 h2 h3 h4 h5 in
/-- The kernel's result array, as the last region leaves it, is the reference's result array. -/
theorem result_eq : Cert.KernelIdeal.Gen.W11 m ρ c (Proc.devRef .tc Cert.KernelIdeal.main_v86) = R6 m' c (Proc.devRef .tc Cert.ReferenceIdeal.main_v90) := by
  refine (Cert.KernelIdeal.Gen.W11_arr m ρ c 2).trans ((Cert.KernelIdeal.Hand.region3_value (Cert.KernelIdeal.Gen.V10 m ρ) c).trans ?_)
  refine Eq.trans ?_ (Cert.ReferenceIdeal.Hand.rops5_value (R5 m' c)).symm
  show Cert.Spec.be (Cert.KernelIdeal.Gen.W10 m ρ c (Proc.devRef .tc Cert.KernelIdeal.main_v84)) (Cert.KernelIdeal.Gen.W10 m ρ c (Proc.devRef .tc Cert.KernelIdeal.main_v85)) = _
  rw [agg2 m ρ m' c h0 h1 h2 h3 h4, row2, R5_main_arg5, h5]
  exact congrArg _ (bias_row _ _ _)

end

end Cert.Hand

end
-- ==== Proof.lean ====
/-
  The kernel is a two-layer graph convolution: per layer, node features times a 128×128 weight matrix (on the matrix
  unit, ten row blocks of 5000 nodes), then along the 850000 edges (the given 800000 and one self loop per node) the
  symmetric normalisation deg(src)^(-1/2) · deg(dst)^(-1/2), a gather of the transformed rows by source, a scatter-add by
  target, and a second kernel adding the bias row and applying ELU. The reference computes the same with whole-array host
  operations (its ELU written with expm1). Read over the extended reals the roundings to bf16 before each product are the
  identity, a block-wise product into a zero accumulator is the plain matrix product, and eᵛ − 1 is expm1(v), so the two
  dense stages agree entry by entry (Proof/MatmulValue.lean, Proof/BiasEluValue.lean); the edge stretches are the same
  operations on both sides (Proof/Stretch.lean); Proof/Value.lean carries the agreement from boundary to boundary.
  No law used needs the inputs finite, so the precondition is never opened; the ideal pass rewrote nothing, so
  `preserves` is `True`.
-/
import proofs.«168945_j53094385713941_1_alg».proof.Defs
import proofs.«168945_j53094385713941_1_alg».proof.Proof.Gen.Kernel
import proofs.«168945_j53094385713941_1_alg».proof.Proof.Gen.Kernel.Skeleton
import proofs.«168945_j53094385713941_1_alg».proof.Proof.Gen.Kernel.Launch
import proofs.«168945_j53094385713941_1_alg».proof.Proof.Gen.Kernel.Points
import proofs.«168945_j53094385713941_1_alg».proof.Proof.Gen.Kernel.Frame
import proofs.«168945_j53094385713941_1_alg».proof.Proof.Gen.KernelIdeal
import proofs.«168945_j53094385713941_1_alg».proof.Proof.Gen.KernelIdeal.Skeleton
import proofs.«168945_j53094385713941_1_alg».proof.Proof.Gen.KernelIdeal.Launch
import proofs.«168945_j53094385713941_1_alg».proof.Proof.Gen.KernelIdeal.Points
import proofs.«168945_j53094385713941_1_alg».proof.Proof.Gen.KernelIdeal.Frame
import proofs.«168945_j53094385713941_1_alg».proof.Proof.Gen.ReferenceIdeal
import proofs.«168945_j53094385713941_1_alg».proof.Proof.Gen.Pre_finite_inputs
import proofs.«168945_j53094385713941_1_alg».proof.Proof.KRun
import proofs.«168945_j53094385713941_1_alg».proof.Proof.RefKept
import proofs.«168945_j53094385713941_1_alg».proof.Proof.Value
import proofs.«168945_j53094385713941_1_alg».proof.Proof.MatmulValue
import proofs.«168945_j53094385713941_1_alg».proof.Proof.BiasEluValue
import proofs.«168945_j53094385713941_1_alg».proof.Proof.RefRun
import Idealize.ShloMosaic.Adequacy
import Idealize.ShloMosaic.Init

noncomputable section

namespace Cert.Proof

open Idealize.ShloMosaic Idealize.SL.Sem

/-- The word-level kernel runs and keeps its arguments: the generated frame of its four regions. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- The reference is a straight line of host operations, none of which writes an argument. -/
theorem frame_ri : @Cert.frame_ReferenceIdeal Cert.ReferenceIdeal.Gen.facts Cert.Pre_finite_inputs.Gen.facts :=
  fun m ρ _ => (θ_run Cert.ReferenceIdeal.defs _ _).mono
    (fun r h c => ⟨(h c Cert.ReferenceIdeal.main_arg0).trans (Cert.Hand.ref_kept_main_arg0 _),
      (h c Cert.ReferenceIdeal.main_arg1).trans (Cert.Hand.ref_kept_main_arg1 _),
      (h c Cert.ReferenceIdeal.main_arg2).trans (Cert.Hand.ref_kept_main_arg2 _),
      (h c Cert.ReferenceIdeal.main_arg3).trans (Cert.Hand.ref_kept_main_arg3 _),
      (h c Cert.ReferenceIdeal.main_arg4).trans (Cert.Hand.ref_kept_main_arg4 _),
      (h c Cert.ReferenceIdeal.main_arg5).trans (Cert.Hand.ref_kept_main_arg5 _)⟩)
    (Cert.ReferenceIdeal.Hand.run (F := Ideal) m ρ)

/-- From agreeing arguments both programs end with the same result array: the kernel's run names its result as the
    last boundary's contents, the reference's run as its operations' composed term, and the two are equal. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W11 m ρ c (Proc.devRef .tc Cert.KernelIdeal.main_v86), Cert.KernelIdeal.GenRun.run_main m ρ, ?_⟩
  refine (θ_run Cert.ReferenceIdeal.defs _ _).mono (fun r h c => ⟨?_, (h c Cert.ReferenceIdeal.main_arg0).trans (Cert.Hand.ref_kept_main_arg0 _),
      (h c Cert.ReferenceIdeal.main_arg1).trans (Cert.Hand.ref_kept_main_arg1 _),
      (h c Cert.ReferenceIdeal.main_arg2).trans (Cert.Hand.ref_kept_main_arg2 _),
      (h c Cert.ReferenceIdeal.main_arg3).trans (Cert.Hand.ref_kept_main_arg3 _),
      (h c Cert.ReferenceIdeal.main_arg4).trans (Cert.Hand.ref_kept_main_arg4 _),
      (h c Cert.ReferenceIdeal.main_arg5).trans (Cert.Hand.ref_kept_main_arg5 _)⟩)
    (Cert.ReferenceIdeal.Hand.run (F := Ideal) m' ρ')
  obtain ⟨h0, h1, h2, h3, h4, h5⟩ := hagree c
  exact (h c Cert.ReferenceIdeal.main_v90).trans (Cert.Hand.result_eq m ρ m' c h0 h1 h2 h3 h4 h5).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
